-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S300x256 : Shape := ⟨2, ![300, 256]⟩
abbrev S256x300 : Shape := ⟨2, ![256, 300]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S300x256 : S_.BroadcastsInDim S300x256 (![] : Fin 0 → Fin S300x256.rank)
  reducesTo_S300x256_S_d0_1 : S300x256.ReducesTo [0, 1] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x300 1) : IVec S_ 1 :=
  let main_c_5 : IVec S_ 1 := constantI S_ 1 1#1
  let main_v17 : IVec S_ 1 := (fun x v => Host.reduce IntOp.andi x v reducesTo_S256x300_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S1024x256 .f32) (main_arg1 : FVec F S1024x256 .f32) (main_arg2 : FVec F S300x256 .f32) (main_arg3 : FVec F S256x300 .f32) (main_arg4 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S300x256 .f32 := Host.absf main_arg2
  let main_cst_2 : FVec F S_ .f32 := constant S_ .f32 0x7F800000#32
  let main_v10 : FVec F S300x256 .f32 := broadcastInDim S300x256 ![] bcast_S_S300x256 main_cst_2
  let main_v11 : IVec S300x256 1 := cmpf .olt main_v9 main_v10
  let main_c_3 : IVec S_ 1 := constantI S_ 1 1#1
  let main_v12 : IVec S_ 1 := (fun x v => Host.reduce IntOp.andi x v reducesTo_S300x256_S_d0_1 h_S_) main_v11 main_c_3
  let main_v13 : IVec S_ 1 := andi main_v8 main_v12
  let main_v14 : FVec F S256x300 .f32 := Host.absf main_arg3
  let main_cst_4 : FVec F S_ .f32 := constant S_ .f32 0x7F800000#32
  let main_v15 : FVec F S256x300 .f32 := broadcastInDim S256x300 ![] bcast_S_S256x300 main_cst_4
  let main_v16 : IVec S256x300 1 := cmpf .olt main_v14 main_v15
  fn_part1 (F := F) main_arg4 main_v13 main_v16
-- ==== Kernel.lean ====
abbrev S1024x256 : Shape := ⟨2, ![1024, 256]⟩
abbrev S300x256 : Shape := ⟨2, ![300, 256]⟩
abbrev S256x300 : Shape := ⟨2, ![256, 300]⟩
abbrev S256 : Shape := ⟨1, ![256]⟩
abbrev S1x256 : Shape := ⟨2, ![1, 256]⟩
abbrev S1x1024 : Shape := ⟨2, ![1, 1024]⟩
abbrev S1024 : Shape := ⟨1, ![1024]⟩
abbrev S128x256 : Shape := ⟨2, ![128, 256]⟩
abbrev S1x128 : Shape := ⟨2, ![1, 128]⟩
abbrev S16x256 : Shape := ⟨2, ![16, 256]⟩
abbrev S16x256x1 : Shape := ⟨3, ![16, 256, 1]⟩
abbrev S1x256x300 : Shape := ⟨3, ![1, 256, 300]⟩
abbrev S16x256x300 : Shape := ⟨3, ![16, 256, 300]⟩
abbrev S4096x300 : Shape := ⟨2, ![4096, 300]⟩
abbrev S4096x256 : Shape := ⟨2, ![4096, 256]⟩
abbrev S16x256x256 : Shape := ⟨3, ![16, 256, 256]⟩
abbrev S16 : Shape := ⟨1, ![16]⟩
abbrev S1x16 : Shape := ⟨2, ![1, 16]⟩

abbrev nBuf : Space → Nat
  | .hbm => 8
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S300x256, .f32⟩
  | .hbm, ⟨3, _⟩ => ⟨S256x300, .f32⟩
  | .hbm, ⟨4, _⟩ => ⟨S256, .f32⟩
  | .hbm, ⟨5, _⟩ => ⟨S1x256, .f32⟩
  | .hbm, ⟨6, _⟩ => ⟨S1x1024, .f32⟩
  | .hbm, ⟨7, _⟩ => ⟨S1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S300x256, .f32⟩
  | .local _ .vmem, ⟨5, _⟩ => ⟨S256x300, .f32⟩
  | .local _ .vmem, ⟨6, _⟩ => ⟨S1x256, .f32⟩
  | .local _ .vmem, ⟨7, _⟩ => ⟨S1x128, .f32⟩
  | .local _ .vmem, ⟨8, _⟩ => ⟨S1x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S1x1024_S1024 : S1x1024.ShapeCasts S1024
  inb_S300x256_S300x256_0_0 : ∀ a, (![0, 0] : Fin 2 → Nat) a + S300x256.size a ≤ S300x256.size a
  h_S300x256 : 0 < S300x256.numel
  transposes_S300x256_p1_0_S256x300 : S300x256.Transposes [1, 0] S256x300
  inb_S256x300_S256x300_0_0 : ∀ a, (![0, 0] : Fin 2 → Nat) a + S256x300.size a ≤ S256x300.size a
  h_S256x300 : 0 < S256x300.numel
  transposes_S256x300_p1_0_S300x256 : S256x300.Transposes [1, 0] S300x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x256_S16x256_0_0 : ∀ a, (![0, 0] : Fin 2 → Nat) a + S16x256.size a ≤ S128x256.size a
  h_S16x256 : 0 < S16x256.numel
  shapeCasts_S16x256_S16x256x1 : S16x256.ShapeCasts S16x256x1
  shapeCasts_S256x300_S1x256x300 : S256x300.ShapeCasts S1x256x300
  broadcasts_S16x256x1_S16x256x300 : S16x256x1.Broadcasts S16x256x300
  broadcasts_S1x256x300_S16x256x300 : S1x256x300.Broadcasts S16x256x300
  shapeCasts_S16x256x300_S4096x300 : S16x256x300.ShapeCasts S4096x300
  broadcasts_S1x256_S4096x256 : S1x256.Broadcasts S4096x256
  shapeCasts_S4096x256_S16x256x256 : S4096x256.ShapeCasts S16x256x256
  reduces_S16x256x256_S16x256 : S16x256x256.Reduces [2] S16x256
  broadcasts_S16x256x1_S16x256x256 : S16x256x1.Broadcasts S16x256x256
  reduces_S16x256x256_S16x256_2 : S16x256x256.Reduces [1] S16x256
  reduces_S16x256_S16 : S16x256.Reduces [1] S16
  shapeCasts_S16_S1x16 : S16.ShapeCasts S1x16
  inb_S1x128_S1x16_0_0 : ∀ a, (![0, 0] : Fin 2 → Nat) a + S1x16.size a ≤ S1x128.size a
  h_S1x16 : 0 < S1x16.numel
  inb_S128x256_S16x256_16_0 : ∀ a, (![16, 0] : Fin 2 → Nat) a + S16x256.size a ≤ S128x256.size a
  inb_S1x128_S1x16_0_16 : ∀ a, (![0, 16] : Fin 2 → Nat) a + S1x16.size a ≤ S1x128.size a
  inb_S128x256_S16x256_32_0 : ∀ a, (![32, 0] : Fin 2 → Nat) a + S16x256.size a ≤ S128x256.size a
  inb_S1x128_S1x16_0_32 : ∀ a, (![0, 32] : Fin 2 → Nat) a + S1x16.size a ≤ S1x128.size a
  inb_S128x256_S16x256_48_0 : ∀ a, (![48, 0] : Fin 2 → Nat) a + S16x256.size a ≤ S128x256.size a
  inb_S1x128_S1x16_0_48 : ∀ a, (![0, 48] : Fin 2 → Nat) a + S1x16.size a ≤ S1x128.size a
  inb_S128x256_S16x256_64_0 : ∀ a, (![64, 0] : Fin 2 → Nat) a + S16x256.size a ≤ S128x256.size a
  inb_S1x128_S1x16_0_64 : ∀ a, (![0, 64] : Fin 2 → Nat) a + S1x16.size a ≤ S1x128.size a
  inb_S128x256_S16x256_80_0 : ∀ a, (![80, 0] : Fin 2 → Nat) a + S16x256.size a ≤ S128x256.size a
  inb_S1x128_S1x16_0_80 : ∀ a, (![0, 80] : Fin 2 → Nat) a + S1x16.size a ≤ S1x128.size a
  inb_S128x256_S16x256_96_0 : ∀ a, (![96, 0] : Fin 2 → Nat) a + S16x256.size a ≤ S128x256.size a
  inb_S1x128_S1x16_0_96 : ∀ a, (![0, 96] : Fin 2 → Nat) a + S1x16.size a ≤ S1x128.size a
  inb_S128x256_S16x256_112_0 : ∀ a, (![112, 0] : Fin 2 → Nat) a + S16x256.size a ≤ S128x256.size a
  inb_S1x128_S1x16_0_112 : ∀ a, (![0, 112] : Fin 2 → Nat) a + S1x16.size a ≤ S1x128.size a
  dot_S4096x300_S300x256_S4096x256_1_0_0_1_n_n_wf : DotDims.WF S4096x300 S300x256 S4096x256 [1] [0] [0] [1] [] []
  dot_S16x256x256_S16x256x256_S16x256x256_2_2_1_1_0_0_wf : DotDims.WF S16x256x256 S16x256x256 S16x256x256 [2] [2] [1] [1] [0] [0]
  dot_S16x256x256_S16x256x256_S16x256x256_2_1_1_2_0_0_wf : DotDims.WF S16x256x256 S16x256x256 S16x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x256.size a ≤ S300x256.size a
  hwx0_2 : ∀ i : grid0.Coords, EltTy.bits .f32 = 32 ∨ (Rect.block (s := S300x256) S300x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x300.size a ≤ S256x300.size a
  hwx0_3 : ∀ i : grid0.Coords, EltTy.bits .f32 = 32 ∨ (Rect.block (s := S256x300) S256x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x1024.size a
  hwx0_5 : ∀ i : grid0.Coords, EltTy.bits .f32 = 32 ∨ (Rect.block (s := S1x1024) S1x128.size (cc0_transform_5 i) (hinb0_5 i)).WholeWords (EltTy.packing .f32)

variable [Facts₀]

def dot_S4096x300_S300x256_S4096x256_1_0_0_1_n_n : DotDims S4096x300 S300x256 S4096x256 where
  lhsContracting := [1]
  rhsContracting := [0]
  lhsNonContracting := [0]
  rhsNonContracting := [1]
  lhsBatch := []
  rhsBatch := []
  wf := dot_S4096x300_S300x256_S4096x256_1_0_0_1_n_n_wf
def dot_S16x256x256_S16x256x256_S16x256x256_2_2_1_1_0_0 : DotDims S16x256x256 S16x256x256 S16x256x256 where
  lhsContracting := [2]
  rhsContracting := [2]
  lhsNonContracting := [1]
  rhsNonContracting := [1]
  lhsBatch := [0]
  rhsBatch := [0]
  wf := dot_S16x256x256_S16x256x256_S16x256x256_2_2_1_1_0_0_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S300x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x256 : Shape := ⟨2, ![1024, 256]⟩
abbrev S300x256 : Shape := ⟨2, ![300, 256]⟩
abbrev S256x300 : Shape := ⟨2, ![256, 300]⟩
abbrev S256 : Shape := ⟨1, ![256]⟩
abbrev S1024x256x1 : Shape := ⟨3, ![1024, 256, 1]⟩
abbrev S1x256x300 : Shape := ⟨3, ![1, 256, 300]⟩
abbrev S1024x256x300 : Shape := ⟨3, ![1024, 256, 300]⟩
abbrev S1024x256x256 : Shape := ⟨3, ![1024, 256, 256]⟩
abbrev S1x1x256 : Shape := ⟨3, ![1, 1, 256]⟩
abbrev S_ : Shape := ⟨0, ![]⟩
abbrev S1024x1x256 : Shape := ⟨3, ![1024, 1, 256]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S300x256, .f32⟩
  | .hbm, ⟨3, _⟩ => ⟨S256x300, .f32⟩
  | .hbm, ⟨4, _⟩ => ⟨S256, .f32⟩
  | .hbm, ⟨5, _⟩ => ⟨S256x300, .f32⟩
  | .hbm, ⟨6, _⟩ => ⟨S1024x256x1, .f32⟩
  | .hbm, ⟨7, _⟩ => ⟨S1x256x300, .f32⟩
  | .hbm, ⟨8, _⟩ => ⟨S1024x256x300, .f32⟩
  | .hbm, ⟨9, _⟩ => ⟨S1024x256x300, .f32⟩
  | .hbm, ⟨10, _⟩ => ⟨S1024x256x300, .f32⟩
  | .hbm, ⟨11, _⟩ => ⟨S1024x256x1, .f32⟩
  | .hbm, ⟨12, _⟩ => ⟨S1x256x300, .f32⟩
  | .hbm, ⟨13, _⟩ => ⟨S1024x256x300, .f32⟩
  | .hbm, ⟨14, _⟩ => ⟨S1024x256x300, .f32⟩
  | .hbm, ⟨15, _⟩ => ⟨S1024x256x300, .f32⟩
  | .hbm, ⟨16, _⟩ => ⟨S1024x256x256, .f32⟩
  | .hbm, ⟨17, _⟩ => ⟨S1x1x256, .f32⟩
  | .hbm, ⟨18, _⟩ => ⟨S1024x256x256, .f32⟩
  | .hbm, ⟨19, _⟩ => ⟨S1024x256x256, .f32⟩
  | .hbm, ⟨20, _⟩ => ⟨S1024x256x256, .f32⟩
  | .hbm, ⟨21, _⟩ => ⟨S1x1x256, .f32⟩
  | .hbm, ⟨22, _⟩ => ⟨S1024x256x256, .f32⟩
  | .hbm, ⟨23, _⟩ => ⟨S1024x256x256, .f32⟩
  | .hbm, ⟨24, _⟩ => ⟨S1024x256x256, .f32⟩
  | .hbm, ⟨25, _⟩ => ⟨S_, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x1x256, .f32⟩
  | .hbm, ⟨31, _⟩ => ⟨S1024x256x256, .f32⟩
  | .hbm, ⟨32, _⟩ => ⟨S1024x256x256, .f32⟩
  | .hbm, ⟨33, _⟩ => ⟨S1024x256x256, .f32⟩
  | .hbm, ⟨34, _⟩ => ⟨S_, .f32⟩
  | .hbm, ⟨35, _⟩ => ⟨S1024x256, .f32⟩
  | .hbm, ⟨36, _⟩ => ⟨S1024x1x256, .f32⟩
  | .hbm, ⟨37, _⟩ => ⟨S1024x256x256, .f32⟩
  | .hbm, ⟨38, _⟩ => ⟨S1024x256x256, .f32⟩
  | .hbm, ⟨39, _⟩ => ⟨S1024x256x256, .f32⟩
  | .hbm, ⟨40, _⟩ => ⟨S_, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S_, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S_, .f32⟩
  | .hbm, ⟨52, _⟩ => ⟨S1024, .f32⟩
  | .hbm, ⟨53, _⟩ => ⟨S1024x256, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024x256, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_call0_v0 : Ref sig .tc := ⟨.hbm, 53, rfl⟩
abbrev main_call0_cst : Ref sig .tc := ⟨.hbm, 54, rfl⟩
abbrev main_call0_v1 : Ref sig .tc := ⟨.hbm, 55, rfl⟩
abbrev main_v40 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  transposes_S300x256_S256x300_1_0 : S300x256.Transposes [1, 0] S256x300
  bcast_S1024x256_S1024x256x1_0_1 : S1024x256.BroadcastsInDim S1024x256x1 (![0, 1] : Fin 2 → Fin S1024x256x1.rank)
  bcast_S256x300_S1x256x300_1_2 : S256x300.BroadcastsInDim S1x256x300 (![1, 2] : Fin 2 → Fin S1x256x300.rank)
  bcast_S1024x256x1_S1024x256x300_0_1_2 : S1024x256x1.BroadcastsInDim S1024x256x300 (![0, 1, 2] : Fin 3 → Fin S1024x256x300.rank)
  bcast_S1x256x300_S1024x256x300_0_1_2 : S1x256x300.BroadcastsInDim S1024x256x300 (![0, 1, 2] : Fin 3 → Fin S1024x256x300.rank)
  bcast_S256_S1x1x256_2 : S256.BroadcastsInDim S1x1x256 (![2] : Fin 1 → Fin S1x1x256.rank)
  bcast_S1x1x256_S1024x256x256_0_1_2 : S1x1x256.BroadcastsInDim S1024x256x256 (![0, 1, 2] : Fin 3 → Fin S1024x256x256.rank)
  reducesTo_S1024x256x256_S1024x256_d1 : S1024x256x256.ReducesTo [1] S1024x256
  h_S_ : 0 < S_.numel
  bcast_S_S1024x256 : S_.BroadcastsInDim S1024x256 (![] : Fin 0 → Fin S1024x256.rank)
  bcast_S1024x256_S1024x1x256_0_2 : S1024x256.BroadcastsInDim S1024x1x256 (![0, 2] : Fin 2 → Fin S1024x1x256.rank)
  bcast_S1024x1x256_S1024x256x256_0_1_2 : S1024x1x256.BroadcastsInDim S1024x256x256 (![0, 1, 2] : Fin 3 → Fin S1024x256x256.rank)
  reducesTo_S1024x256_S1024_d1 : S1024x256.ReducesTo [1] S1024
  bcast_S_S1024 : S_.BroadcastsInDim S1024 (![] : Fin 0 → Fin S1024.rank)
  dot_S1024x256x300_S256x300_S1024x256x256_2_1_01_0_n_n_wf : DotDims.WF S1024x256x300 S256x300 S1024x256x256 [2] [1] [0, 1] [0] [] []
  dot_S1024x256x256_S1024x256x256_S1024x256x256_2_2_1_1_0_0_wf : DotDims.WF S1024x256x256 S1024x256x256 S1024x256x256 [2] [2] [1] [1] [0] [0]
  dot_S1024x256x256_S1024x256x256_S1024x256x256_1_1_2_2_0_0_wf : DotDims.WF S1024x256x256 S1024x256x256 S1024x256x256 [1] [1] [2] [2] [0] [0]

variable [Facts₀]

def dot_S1024x256x300_S256x300_S1024x256x256_2_1_01_0_n_n : DotDims S1024x256x300 S256x300 S1024x256x256 where
  lhsContracting := [2]
  rhsContracting := [1]
  lhsNonContracting := [0, 1]
  rhsNonContracting := [0]
  lhsBatch := []
  rhsBatch := []
  wf := dot_S1024x256x300_S256x300_S1024x256x256_2_1_01_0_n_n_wf
def dot_S1024x256x256_S1024x256x256_S1024x256x256_2_2_1_1_0_0 : DotDims S1024x256x256 S1024x256x256 S1024x256x256 where
  lhsContracting := [2]
  rhsContracting := [2]
  lhsNonContracting := [1]
  rhsNonContracting := [1]
  lhsBatch := [0]
  rhsBatch := [0]
  wf := dot_S1024x256x256_S1024x256x256_S1024x256x256_2_2_1_1_0_0_wf
def dot_S1024x256x256_S1024x256x256_S1024x256x256_1_1_2_2_0_0 : DotDims S1024x256x256 S1024x256x256 S1024x256x256 where
  lhsContracting := [1]
  rhsContracting := [1]
  lhsNonContracting := [2]
  rhsNonContracting := [2]
  lhsBatch := [0]
  rhsBatch := [0]
  wf := dot_S1024x256x256_S1024x256x256_S1024x256x256_1_1_2_2_0_0_wf

class Facts : Prop extends Facts₀ where

variable [Facts]
-- ==== Proof.Chunk.lean ====
/-
  One sub-chunk of the kernel body: 16 batch rows, staged.

  The body handles the 128 rows of a grid block as eight sub-chunks of 16 rows, every sub-chunk by the same
  operations on its own 16 rows of the request and service blocks and on the whole embedding table, weight matrix and
  bias row. The stages below are those operations, grouped by what they compute:
    feats     the linear layer on each topic's scaled embedding: [16,256] rows -> [16,256,256] features
    scores    service features against request features, contracted over the feature axis
    shifted   exp of a score minus its row maximum (the maximum over the last axis, from minus infinity)
    norml     the sum of the shifted exponentials over the last axis, kept as a unit axis
    attended  the softmax weights times the request features, contracted over the request topics
    meanT     the mean over the topic axis
    cosine    the scaled cosine similarity of two [16,256] feature arrays, as a [1,16] row
  and `chunk` composes them. They are stated for any float instance; what each is at an index is read at the
  ideal values elsewhere.
-/
import proofs.«117190_j58067957842619_1_alg».proof.Proof.Gen.KernelIdeal.Skeleton

set_option synthInstance.maxSize 4096

noncomputable section

namespace Cert.KernelIdeal.Chunk

open Idealize.ShloMosaic Idealize.SL.Sem Cert.KernelIdeal Cert.KernelIdeal.Gen

variable {F : FTy → Type} [FloatOps F]

/-- The linear layer on every topic's embedding scaled by the row's weight: entry (b, t, f) is the sum over e of
    (x (b, t) * te (e, t)) * w (f, e), plus the bias at f. The [16,256,300] products are flattened to 4096 rows for
    the one matrix product and the result is cut back into 16 rows of 256 topics. -/
def feats (te : Vec F S300x256 .f32) (w : Vec F S256x300 .f32) (bias : Vec F S1x256 .f32) (x : Vec F S16x256 .f32) :
    FVec F S16x256x256 .f32 :=
  shapeCast S16x256x256
    (addf
      (matmul dot_S4096x300_S300x256_S4096x256_1_0_0_1_n_n none
        (shapeCast S4096x300
          (truncf .bf16
            (mulf (broadcastTo S16x256x300 (shapeCast S16x256x1 x shapeCasts_S16x256_S16x256x1) broadcasts_S16x256x1_S16x256x300)
              (broadcastTo S16x256x300
                (shapeCast S1x256x300 (transpose S256x300 [1, 0] te transposes_S300x256_p1_0_S256x300) shapeCasts_S256x300_S1x256x300)
                broadcasts_S1x256x300_S16x256x300))
            bitsLt_bf16_f32)
          shapeCasts_S16x256x300_S4096x300)
        (truncf .bf16 (transpose S300x256 [1, 0] w transposes_S256x300_p1_0_S300x256) bitsLt_bf16_f32)
        (constant S4096x256 .f32 0x00000000#32))
      (broadcastTo S4096x256 (shapeCast S1x256 bias shapeCasts_S1x256_S1x256) broadcasts_S1x256_S4096x256))
    shapeCasts_S4096x256_S16x256x256

/-- Service features against request features: entry (b, i, j) is the sum over k of fs (b, i, k) * fr (b, j, k). -/
def scores (fr fs : FVec F S16x256x256 .f32) : FVec F S16x256x256 .f32 :=
  matmul dot_S16x256x256_S16x256x256_S16x256x256_2_2_1_1_0_0 none (truncf .bf16 fs bitsLt_bf16_f32) (truncf .bf16 fr bitsLt_bf16_f32)
    (constant S16x256x256 .f32 0x00000000#32)

/-- exp of each score minus the maximum of its row (over the last axis, started from minus infinity). -/
def shifted (a : FVec F S16x256x256 .f32) : FVec F S16x256x256 .f32 :=
  exp (subf a
    (broadcastTo S16x256x256
      (shapeCast S16x256x1
        (maximumf (broadcast S16x256 (Scalar.ofBits .f32 0xFF800000#32))
          (multiReduction .maximumf [2] S16x256 a 0xFF800000#32 reduces_S16x256x256_S16x256 (.inl rfl) rfl))
        shapeCasts_S16x256_S16x256x1)
      broadcasts_S16x256x1_S16x256x256))

/-- The sum over the last axis, kept as a unit axis. -/
def norml (e : FVec F S16x256x256 .f32) : FVec F S16x256x1 .f32 :=
  shapeCast S16x256x1 (multiReduction .add [2] S16x256 e 0x00000000#32 reduces_S16x256x256_S16x256 (.inl rfl) rfl)
    shapeCasts_S16x256_S16x256x1

/-- The softmax weights e / d times the request features: entry (b, i, k) is the sum over j of
    (e (b, i, j) / d (b, i, 0)) * fr (b, j, k). -/
def attended (fr e : FVec F S16x256x256 .f32) (d : FVec F S16x256x1 .f32) : FVec F S16x256x256 .f32 :=
  matmul dot_S16x256x256_S16x256x256_S16x256x256_2_1_1_2_0_0 none
    (truncf .bf16 (divf e (broadcastTo S16x256x256 d broadcasts_S16x256x1_S16x256x256)) bitsLt_bf16_f32)
    (truncf .bf16 fr bitsLt_bf16_f32) (constant S16x256x256 .f32 0x00000000#32)

/-- The mean over the topic axis (the middle one): the sum divided by 256. -/
def meanT (a : FVec F S16x256x256 .f32) : FVec F S16x256 .f32 :=
  divf (multiReduction .add [1] S16x256 a 0x00000000#32 reduces_S16x256x256_S16x256_2 (.inl rfl) rfl)
    (broadcast S16x256 (Scalar.ofBits .f32 0x43800000#32))

/-- The scaled cosine similarity, row by row: <p, q> / max (|p| * |q|, eps) * 3, laid out as one row of 16. -/
def cosine (p q : FVec F S16x256 .f32) : FVec F S1x16 .f32 :=
  shapeCast S1x16
    (mulf
      (divf (multiReduction .add [1] S16 (mulf p q) 0x00000000#32 reduces_S16x256_S16 (.inl rfl) rfl)
        (maximumf
          (mulf (sqrt (multiReduction .add [1] S16 (mulf p p) 0x00000000#32 reduces_S16x256_S16 (.inl rfl) rfl))
            (sqrt (multiReduction .add [1] S16 (mulf q q) 0x00000000#32 reduces_S16x256_S16 (.inl rfl) rfl)))
          (broadcast S16 (Scalar.ofBits .f32 0x322BCC77#32))))
      (broadcast S16 (Scalar.ofBits .f32 0x40400000#32)))
    shapeCasts_S16_S1x16

/-- One sub-chunk: the 16 scores of 16 request rows `rq` against 16 service rows `ws`. -/
def chunk (te : Vec F S300x256 .f32) (w : Vec F S256x300 .f32) (bias : Vec F S1x256 .f32) (rq ws : Vec F S16x256 .f32) :
    FVec F S1x16 .f32 :=
  cosine (meanT (feats te w bias rq))
    (meanT (attended (feats te w bias rq) (shifted (scores (feats te w bias rq) (feats te w bias ws)))
      (norml (shifted (scores (feats te w bias rq) (feats te w bias ws))))))

end Cert.KernelIdeal.Chunk

end
-- ==== Proof.Spec.lean ====
/-
  One batch row of the topic cross-attention score, over the extended reals.

  For one request row `r` and one service row `s` of topic weights (256 topics each), a topic embedding
  table `te` (300 x 256), a linear layer `w` (256 x 300) with bias `bv`:
    proj x t f   = (sum over e of (x t * te e t) * w f e) + bv f        -- the layer applied to topic t's scaled embedding
    att i j      = sum over k of proj s i k * proj r j k                -- service topic i against request topic j
    rowMax i     = the maximum over j of att i j (from minus infinity)
    ex i j       = exp (att i j - rowMax i);  den i = sum over j of ex i j;  prob i j = ex i j / den i
    mix i k      = sum over j of prob i j * proj r j k                  -- the attended request features
    aveReq, aveMix = the means over the 256 topics of proj r and of mix
    out          = <aveReq, aveMix> / max (|aveReq| * |aveMix|, eps) * 3  -- a cosine similarity, scaled
  Both programs compute `out` for each of the 1024 batch rows; neither the order of a sum nor a change of float
  format shows at the ideal values, and the only law used between them is that a product of two extended reals commutes.
  The literals stay as the words the two programs share.
-/
import Idealize.ShloMosaic.PureOps.Ideal

noncomputable section

namespace Cert.Row

open Idealize.ShloMosaic

/-- minus infinity, the word both maxima start from -/
abbrev negInf : EReal := Ideal.ofBits .f32 0xFF800000#32
/-- the number of topics, as the divisor of both means -/
abbrev nTopics : EReal := Ideal.ofBits .f32 0x43800000#32
/-- the floor of the cosine's denominator -/
abbrev eps : EReal := Ideal.ofBits .f32 0x322BCC77#32
/-- the final scale -/
abbrev three : EReal := Ideal.ofBits .f32 0x40400000#32

variable (r s : Fin 256 → EReal) (te : Fin 300 → Fin 256 → EReal) (w : Fin 256 → Fin 300 → EReal) (bv : Fin 256 → EReal)

/-- The linear layer on topic `t`'s embedding scaled by the row's weight `x t`, output feature `f`. -/
def proj (x : Fin 256 → EReal) (t f : Fin 256) : EReal := (∑ e : Fin 300, (x t * te e t) * w f e) + bv f

/-- The score of service topic `i` against request topic `j`. -/
def att (i j : Fin 256) : EReal := ∑ k : Fin 256, proj te w bv s i k * proj te w bv r j k

/-- The largest score of service topic `i` over the request topics. -/
def rowMax (i : Fin 256) : EReal :=
  max negInf ((Finset.univ : Finset (Fin 256)).fold max negInf (fun j => att r s te w bv i j))

/-- The shifted exponential of a score. -/
def ex (i j : Fin 256) : EReal := Ideal.exp (att r s te w bv i j - rowMax r s te w bv i)

/-- The softmax normaliser of service topic `i`. -/
def den (i : Fin 256) : EReal := ∑ j : Fin 256, ex r s te w bv i j

/-- The softmax weight of request topic `j` for service topic `i`. -/
def prob (i j : Fin 256) : EReal := Ideal.div (ex r s te w bv i j) (den r s te w bv i)

/-- The request features attended by service topic `i`. -/
def mix (i k : Fin 256) : EReal := ∑ j : Fin 256, prob r s te w bv i j * proj te w bv r j k

/-- The mean request feature. -/
def aveReq (f : Fin 256) : EReal := Ideal.div (∑ t : Fin 256, proj te w bv r t f) nTopics

/-- The mean attended feature. -/
def aveMix (k : Fin 256) : EReal := Ideal.div (∑ i : Fin 256, mix r s te w bv i k) nTopics

/-- The scaled cosine similarity of the two mean feature vectors. -/
def out : EReal :=
  Ideal.div (∑ k : Fin 256, aveReq r te w bv k * aveMix r s te w bv k)
      (max (Ideal.sqrt (∑ k : Fin 256, aveReq r te w bv k * aveReq r te w bv k)
          * Ideal.sqrt (∑ k : Fin 256, aveMix r s te w bv k * aveMix r s te w bv k)) eps)
    * three

end Cert.Row

end
-- ==== Proof.KStagesA.lean ====
/-
  Three stages of one sub-chunk read at an index, at the ideal values.

  Each stage is a matrix product into a zero accumulator with layout operations around it; over the extended reals a
  narrowing of the float format is the identity and the product at an output index is the plain sum over the one
  contracted axis. Read that way:
    feats     entry (b, t, f) is (the sum over e of (x (b, t) * te (e, t)) * w (f, e)) + bias (0, f), the linear layer
              `Cert.Row.proj` on topic t's embedding scaled by row b's weight. The kernel flattens the (row, topic)
              pairs to 4096 rows, pair (b, t) at row 256 * b + t, multiplies once, and cuts the rows back; both
              reshapes keep the row-major position, which is all that is used of them.
    scores    entry (b, i, j) is the sum over k of fs (b, i, k) * fr (b, j, k): row b is a batch axis, both operands are
              contracted along their last axis.
    attended  entry (b, i, k) is the sum over j of (e (b, i, j) / d (b, i, 0)) * fr (b, j, k): the left operand is
              contracted along its last axis, the right one along its middle axis.
  For each product the operand indices at an output index and a contraction position are first computed axis by axis,
  then the sum over the contraction shape is re-indexed by its one coordinate.
-/
import proofs.«117190_j58067957842619_1_alg».proof.Proof.Chunk
import proofs.«117190_j58067957842619_1_alg».proof.Proof.Spec
import Idealize.ShloMosaic.Lib.ValueIdx
import Idealize.ShloMosaic.Lib.Pipeline.Value
import Idealize.ShloMosaic.Lib.ValueLayout
import Idealize.ShloMosaic.PureOps.Ideal.Laws
noncomputable section

namespace Cert.KernelIdeal.Chunk
open Idealize.ShloMosaic Idealize.SL.Sem Cert.KernelIdeal Cert.KernelIdeal.Gen Idealize.ShloMosaic.ValueIdx

namespace StagesA

/-! ## The linear layer: one [4096,300] x [300,256] product over the 4096 flattened (row, topic) pairs -/

/-- The flattened position of topic `t` of batch row `b`: row `256 * b + t` of 4096. -/
abbrev flatRow (b : Fin 16) (t : Fin 256) : Fin 4096 :=
  ⟨256 * b.val + t.val, by have := b.isLt; have := t.isLt; omega⟩

/-- 4096 rows cut back into 16 blocks of 256: entry (b, t, f) is row `256 * b + t`, column f. -/
theorem cast_rows_apply {α : Type} (v : S4096x256.Idx → α) (h : S4096x256.ShapeCasts S16x256x256)
    (b : Fin 16) (t f : Fin 256) :
    shapeCast S16x256x256 v h (ix3 b t f) = v (ix2 (flatRow b t) f) :=
  shapeCast_apply v h _ _ (by
    rw [Shape.rowMajor_val_two, Shape.rowMajor_val_three]
    show (256 * b.val + t.val) * 256 + f.val = (b.val * 256 + t.val) * 256 + f.val
    omega)

/-- 16 blocks of 256 rows flattened to 4096: row `256 * b + t`, column e is entry (b, t, e). -/
theorem flatten_rows_apply {α : Type} (v : S16x256x300.Idx → α) (h : S16x256x300.ShapeCasts S4096x300)
    (b : Fin 16) (t : Fin 256) (e : Fin 300) :
    shapeCast S4096x300 v h (ix2 (flatRow b t) e) = v (ix3 b t e) :=
  shapeCast_apply v h _ _ (by
    rw [Shape.rowMajor_val_two, Shape.rowMajor_val_three]
    show (b.val * 256 + t.val) * 300 + e.val = (256 * b.val + t.val) * 300 + e.val
    omega)

/-- A [16,256] array given a trailing unit axis reads, at (b, t, u), the operand at (b, t). -/
theorem cast_unitLast_apply {α : Type} (v : S16x256.Idx → α) (h : S16x256.ShapeCasts S16x256x1)
    (b : Fin 16) (t : Fin 256) (u : Fin 1) :
    shapeCast S16x256x1 v h (ix3 b t u) = v (ix2 b t) :=
  shapeCast_apply v h _ _ (by
    have hu : u.val = 0 := by omega
    rw [Shape.rowMajor_val_two, Shape.rowMajor_val_three]
    show b.val * 256 + t.val = (b.val * 256 + t.val) * 1 + u.val
    omega)

/-- A [16,256,1] array broadcast along its unit axis to 300 reads, at (b, t, e), the operand at (b, t, 0). -/
theorem broadcastTo_unitLast300_apply {α : Type} (v : S16x256x1.Idx → α) (h : S16x256x1.Broadcasts S16x256x300)
    (b : Fin 16) (t : Fin 256) (e : Fin 300) :
    broadcastTo S16x256x300 v h (ix3 b t e) = v (ix3 b t (0 : Fin 1)) :=
  broadcastTo_apply v h (ix3 b t e) (ix3 b t (0 : Fin 1)) fun a => by
    match a with
    | ⟨0, _⟩ => show b.val = if (16 : Nat) = 1 then 0 else b.val; rw [if_neg (by decide)]
    | ⟨1, _⟩ => show t.val = if (256 : Nat) = 1 then 0 else t.val; rw [if_neg (by decide)]
    | ⟨2, _⟩ => show 0 = if (1 : Nat) = 1 then 0 else e.val; rw [if_pos rfl]

/-- A [1,256,300] array broadcast over 16 rows reads, at (b, t, e), the operand at (0, t, e). -/
theorem broadcastTo_unitFirst_apply {α : Type} (v : S1x256x300.Idx → α) (h : S1x256x300.Broadcasts S16x256x300)
    (b : Fin 16) (t : Fin 256) (e : Fin 300) :
    broadcastTo S16x256x300 v h (ix3 b t e) = v (ix3 (0 : Fin 1) t e) :=
  broadcastTo_apply v h (ix3 b t e) (ix3 (0 : Fin 1) t e) fun a => by
    match a with
    | ⟨0, _⟩ => show 0 = if (1 : Nat) = 1 then 0 else b.val; rw [if_pos rfl]
    | ⟨1, _⟩ => show t.val = if (256 : Nat) = 1 then 0 else t.val; rw [if_neg (by decide)]
    | ⟨2, _⟩ => show e.val = if (300 : Nat) = 1 then 0 else e.val; rw [if_neg (by decide)]

theorem lhs_ft_0 (i : S4096x256.Idx) (q : dot_S4096x300_S300x256_S4096x256_1_0_0_1_n_n.contr.Idx) :
    (dot_S4096x300_S300x256_S4096x256_1_0_0_1_n_n.lhsIdx i q 0).val = (i 0).val := by
  unfold DotDims.lhsIdx
  rw [dif_neg (show ¬(0 : Fin S4096x300.rank) ∈ dot_S4096x300_S300x256_S4096x256_1_0_0_1_n_n.lhsBatch by decide), dif_pos (show (0 : Fin S4096x300.rank) ∈ dot_S4096x300_S300x256_S4096x256_1_0_0_1_n_n.lhsNonContracting by decide)]
  rfl
theorem lhs_ft_1 (i : S4096x256.Idx) (q : dot_S4096x300_S300x256_S4096x256_1_0_0_1_n_n.contr.Idx) :
    (dot_S4096x300_S300x256_S4096x256_1_0_0_1_n_n.lhsIdx i q 1).val = (q ⟨0, by decide⟩).val :=
  dot_S4096x300_S300x256_S4096x256_1_0_0_1_n_n.lhsIdx_val_of_single rfl i q
theorem rhs_ft_0 (i : S4096x256.Idx) (q : dot_S4096x300_S300x256_S4096x256_1_0_0_1_n_n.contr.Idx) :
    (dot_S4096x300_S300x256_S4096x256_1_0_0_1_n_n.rhsIdx i q 0).val = (q ⟨0, by decide⟩).val :=
  dot_S4096x300_S300x256_S4096x256_1_0_0_1_n_n.rhsIdx_val_of_single rfl i q
theorem rhs_ft_1 (i : S4096x256.Idx) (q : dot_S4096x300_S300x256_S4096x256_1_0_0_1_n_n.contr.Idx) :
    (dot_S4096x300_S300x256_S4096x256_1_0_0_1_n_n.rhsIdx i q 1).val = (i 1).val := by
  unfold DotDims.rhsIdx
  rw [dif_neg (show ¬(1 : Fin S300x256.rank) ∈ dot_S4096x300_S300x256_S4096x256_1_0_0_1_n_n.rhsBatch by decide), dif_pos (show (1 : Fin S300x256.rank) ∈ dot_S4096x300_S300x256_S4096x256_1_0_0_1_n_n.rhsNonContracting by decide)]
  rfl

/-- The plain matrix product into a zero accumulator, read at (p, f): the sum over e of L (p, e) * R (e, f). -/
theorem matmul_rows_apply (L : FVec Ideal S4096x300 .bf16) (R : FVec Ideal S300x256 .bf16) (p : Fin 4096) (f : Fin 256) :
    matmul dot_S4096x300_S300x256_S4096x256_1_0_0_1_n_n none L R (constant (F := Ideal) S4096x256 .f32 0x00000000#32) (ix2 p f)
      = ∑ e : Fin 300, L (ix2 p e) * R (ix2 e f) := by
  simp only [matmul]
  rw [Ideal.matmul_constant_zero_apply, ← Equiv.sum_comp (ValueIdx.contrEquiv1 dot_S4096x300_S300x256_S4096x256_1_0_0_1_n_n 300 rfl rfl).symm]
  refine Finset.sum_congr rfl fun e _ => ?_
  have he := ValueIdx.contrEquiv1_symm_val dot_S4096x300_S300x256_S4096x256_1_0_0_1_n_n 300 rfl rfl e
  have el : dot_S4096x300_S300x256_S4096x256_1_0_0_1_n_n.lhsIdx (ix2 p f) ((ValueIdx.contrEquiv1 dot_S4096x300_S300x256_S4096x256_1_0_0_1_n_n 300 rfl rfl).symm e) = ix2 p e := funext fun a => Fin.ext (by
    match a with
    | ⟨0, _⟩ => exact lhs_ft_0 _ _
    | ⟨1, _⟩ => exact (lhs_ft_1 _ _).trans he)
  have er : dot_S4096x300_S300x256_S4096x256_1_0_0_1_n_n.rhsIdx (ix2 p f) ((ValueIdx.contrEquiv1 dot_S4096x300_S300x256_S4096x256_1_0_0_1_n_n 300 rfl rfl).symm e) = ix2 e f := funext fun a => Fin.ext (by
    match a with
    | ⟨0, _⟩ => exact (rhs_ft_0 _ _).trans he
    | ⟨1, _⟩ => exact rhs_ft_1 _ _)
  rw [el, er]

/-- The left operand at row `256 * b + t`, column e: the row's weight of topic t times the topic's embedding at e. -/
theorem feats_lhs_apply (te : Vec Ideal S300x256 .f32) (x : Vec Ideal S16x256 .f32) (b : Fin 16) (t : Fin 256) (e : Fin 300) :
    (shapeCast S4096x300
      (truncf .bf16
        (mulf (broadcastTo S16x256x300 (shapeCast S16x256x1 x shapeCasts_S16x256_S16x256x1) broadcasts_S16x256x1_S16x256x300)
          (broadcastTo S16x256x300
            (shapeCast S1x256x300 (transpose S256x300 [1, 0] te transposes_S300x256_p1_0_S256x300) shapeCasts_S256x300_S1x256x300)
            broadcasts_S1x256x300_S16x256x300))
        bitsLt_bf16_f32)
      shapeCasts_S16x256x300_S4096x300 : FVec Ideal S4096x300 .bf16) (ix2 (flatRow b t) e)
      = x (ix2 b t) * te (ix2 e t) := by
  rw [flatten_rows_apply, truncf_apply, mulf_apply, broadcastTo_unitLast300_apply, cast_unitLast_apply,
    broadcastTo_unitFirst_apply, shapeCast_ab_1ab_apply, transpose_ix2_apply]

/-- The right operand at (e, f): the weight matrix at (f, e). -/
theorem feats_rhs_apply (w : Vec Ideal S256x300 .f32) (e : Fin 300) (f : Fin 256) :
    (truncf .bf16 (transpose S300x256 [1, 0] w transposes_S256x300_p1_0_S300x256) bitsLt_bf16_f32 : FVec Ideal S300x256 .bf16) (ix2 e f)
      = w (ix2 f e) := by
  rw [truncf_apply, transpose_ix2_apply]

/-- The bias row over all 4096 rows reads, at (p, f), the bias at f. -/
theorem feats_bias_apply (bias : Vec Ideal S1x256 .f32) (p : Fin 4096) (f : Fin 256) :
    broadcastTo S4096x256 (shapeCast S1x256 bias shapeCasts_S1x256_S1x256) broadcasts_S1x256_S4096x256 (ix2 p f)
      = bias (ix2 (0 : Fin 1) f) := by
  rw [broadcastTo_1b_ab_apply, shapeCast_self]

/-! ## The score product: batch axis 0, both operands contracted along their last axis -/

theorem lhs_sc_0 (i : S16x256x256.Idx) (q : dot_S16x256x256_S16x256x256_S16x256x256_2_2_1_1_0_0.contr.Idx) :
    (dot_S16x256x256_S16x256x256_S16x256x256_2_2_1_1_0_0.lhsIdx i q 0).val = (i 0).val := by
  unfold DotDims.lhsIdx
  rw [dif_pos (show (0 : Fin S16x256x256.rank) ∈ dot_S16x256x256_S16x256x256_S16x256x256_2_2_1_1_0_0.lhsBatch by decide)]
  rfl
theorem lhs_sc_1 (i : S16x256x256.Idx) (q : dot_S16x256x256_S16x256x256_S16x256x256_2_2_1_1_0_0.contr.Idx) :
    (dot_S16x256x256_S16x256x256_S16x256x256_2_2_1_1_0_0.lhsIdx i q 1).val = (i 1).val := by
  unfold DotDims.lhsIdx
  rw [dif_neg (show ¬(1 : Fin S16x256x256.rank) ∈ dot_S16x256x256_S16x256x256_S16x256x256_2_2_1_1_0_0.lhsBatch by decide), dif_pos (show (1 : Fin S16x256x256.rank) ∈ dot_S16x256x256_S16x256x256_S16x256x256_2_2_1_1_0_0.lhsNonContracting by decide)]
  rfl
theorem lhs_sc_2 (i : S16x256x256.Idx) (q : dot_S16x256x256_S16x256x256_S16x256x256_2_2_1_1_0_0.contr.Idx) :
    (dot_S16x256x256_S16x256x256_S16x256x256_2_2_1_1_0_0.lhsIdx i q 2).val = (q ⟨0, by decide⟩).val :=
  dot_S16x256x256_S16x256x256_S16x256x256_2_2_1_1_0_0.lhsIdx_val_of_single rfl i q
theorem rhs_sc_0 (i : S16x256x256.Idx) (q : dot_S16x256x256_S16x256x256_S16x256x256_2_2_1_1_0_0.contr.Idx) :
    (dot_S16x256x256_S16x256x256_S16x256x256_2_2_1_1_0_0.rhsIdx i q 0).val = (i 0).val := by
  unfold DotDims.rhsIdx
  rw [dif_pos (show (0 : Fin S16x256x256.rank) ∈ dot_S16x256x256_S16x256x256_S16x256x256_2_2_1_1_0_0.rhsBatch by decide)]
  rfl
theorem rhs_sc_1 (i : S16x256x256.Idx) (q : dot_S16x256x256_S16x256x256_S16x256x256_2_2_1_1_0_0.contr.Idx) :
    (dot_S16x256x256_S16x256x256_S16x256x256_2_2_1_1_0_0.rhsIdx i q 1).val = (i 2).val := by
  unfold DotDims.rhsIdx
  rw [dif_neg (show ¬(1 : Fin S16x256x256.rank) ∈ dot_S16x256x256_S16x256x256_S16x256x256_2_2_1_1_0_0.rhsBatch by decide), dif_pos (show (1 : Fin S16x256x256.rank) ∈ dot_S16x256x256_S16x256x256_S16x256x256_2_2_1_1_0_0.rhsNonContracting by decide)]
  rfl
theorem rhs_sc_2 (i : S16x256x256.Idx) (q : dot_S16x256x256_S16x256x256_S16x256x256_2_2_1_1_0_0.contr.Idx) :
    (dot_S16x256x256_S16x256x256_S16x256x256_2_2_1_1_0_0.rhsIdx i q 2).val = (q ⟨0, by decide⟩).val :=
  dot_S16x256x256_S16x256x256_S16x256x256_2_2_1_1_0_0.rhsIdx_val_of_single rfl i q

/-! ## The attended product: batch axis 0, the left operand contracted along its last axis, the right along its middle one -/

/-- A [16,256,1] array broadcast along its unit axis reads, at (b, i, j), the operand at (b, i, 0). -/
theorem broadcastTo_unitLast_apply (d : FVec Ideal S16x256x1 .f32) (h : S16x256x1.Broadcasts S16x256x256)
    (b : Fin 16) (i j : Fin 256) :
    broadcastTo S16x256x256 d h (ix3 b i j) = d (ix3 b i (0 : Fin 1)) :=
  broadcastTo_apply d h (ix3 b i j) (ix3 b i (0 : Fin 1)) fun a => by
    match a with
    | ⟨0, _⟩ => show b.val = if (16 : Nat) = 1 then 0 else b.val; rw [if_neg (by decide)]
    | ⟨1, _⟩ => show i.val = if (256 : Nat) = 1 then 0 else i.val; rw [if_neg (by decide)]
    | ⟨2, _⟩ => show 0 = if (1 : Nat) = 1 then 0 else j.val; rw [if_pos rfl]

theorem lhs_at_0 (i : S16x256x256.Idx) (q : dot_S16x256x256_S16x256x256_S16x256x256_2_1_1_2_0_0.contr.Idx) :
    (dot_S16x256x256_S16x256x256_S16x256x256_2_1_1_2_0_0.lhsIdx i q 0).val = (i 0).val := by
  unfold DotDims.lhsIdx
  rw [dif_pos (show (0 : Fin S16x256x256.rank) ∈ dot_S16x256x256_S16x256x256_S16x256x256_2_1_1_2_0_0.lhsBatch by decide)]
  rfl
theorem lhs_at_1 (i : S16x256x256.Idx) (q : dot_S16x256x256_S16x256x256_S16x256x256_2_1_1_2_0_0.contr.Idx) :
    (dot_S16x256x256_S16x256x256_S16x256x256_2_1_1_2_0_0.lhsIdx i q 1).val = (i 1).val := by
  unfold DotDims.lhsIdx
  rw [dif_neg (show ¬(1 : Fin S16x256x256.rank) ∈ dot_S16x256x256_S16x256x256_S16x256x256_2_1_1_2_0_0.lhsBatch by decide), dif_pos (show (1 : Fin S16x256x256.rank) ∈ dot_S16x256x256_S16x256x256_S16x256x256_2_1_1_2_0_0.lhsNonContracting by decide)]
  rfl
theorem lhs_at_2 (i : S16x256x256.Idx) (q : dot_S16x256x256_S16x256x256_S16x256x256_2_1_1_2_0_0.contr.Idx) :
    (dot_S16x256x256_S16x256x256_S16x256x256_2_1_1_2_0_0.lhsIdx i q 2).val = (q ⟨0, by decide⟩).val :=
  dot_S16x256x256_S16x256x256_S16x256x256_2_1_1_2_0_0.lhsIdx_val_of_single rfl i q
theorem rhs_at_0 (i : S16x256x256.Idx) (q : dot_S16x256x256_S16x256x256_S16x256x256_2_1_1_2_0_0.contr.Idx) :
    (dot_S16x256x256_S16x256x256_S16x256x256_2_1_1_2_0_0.rhsIdx i q 0).val = (i 0).val := by
  unfold DotDims.rhsIdx
  rw [dif_pos (show (0 : Fin S16x256x256.rank) ∈ dot_S16x256x256_S16x256x256_S16x256x256_2_1_1_2_0_0.rhsBatch by decide)]
  rfl
theorem rhs_at_1 (i : S16x256x256.Idx) (q : dot_S16x256x256_S16x256x256_S16x256x256_2_1_1_2_0_0.contr.Idx) :
    (dot_S16x256x256_S16x256x256_S16x256x256_2_1_1_2_0_0.rhsIdx i q 1).val = (q ⟨0, by decide⟩).val :=
  dot_S16x256x256_S16x256x256_S16x256x256_2_1_1_2_0_0.rhsIdx_val_of_single rfl i q
theorem rhs_at_2 (i : S16x256x256.Idx) (q : dot_S16x256x256_S16x256x256_S16x256x256_2_1_1_2_0_0.contr.Idx) :
    (dot_S16x256x256_S16x256x256_S16x256x256_2_1_1_2_0_0.rhsIdx i q 2).val = (i 2).val := by
  unfold DotDims.rhsIdx
  rw [dif_neg (show ¬(2 : Fin S16x256x256.rank) ∈ dot_S16x256x256_S16x256x256_S16x256x256_2_1_1_2_0_0.rhsBatch by decide), dif_pos (show (2 : Fin S16x256x256.rank) ∈ dot_S16x256x256_S16x256x256_S16x256x256_2_1_1_2_0_0.rhsNonContracting by decide)]
  rfl

end StagesA
open StagesA

/-- The linear layer read at (b, t, f): the one flattened product at row `256 * b + t`, plus the bias at f. -/
theorem feats_apply (te : Vec Ideal S300x256 .f32) (w : Vec Ideal S256x300 .f32) (bias : Vec Ideal S1x256 .f32)
    (x : Vec Ideal S16x256 .f32) (b : Fin 16) (t f : Fin 256) :
    feats (F := Ideal) te w bias x (ix3 b t f)
      = Cert.Row.proj (fun e t => te (ix2 e t)) (fun f e => w (ix2 f e)) (fun f => bias (ix2 (0 : Fin 1) f)) (fun t => x (ix2 b t)) t f := by
  unfold feats Cert.Row.proj
  refine (cast_rows_apply _ _ b t f).trans ?_
  rw [addf_apply, matmul_rows_apply, feats_bias_apply]
  refine congrArg (· + bias (ix2 (0 : Fin 1) f)) ?_
  refine Finset.sum_congr rfl fun e _ => ?_
  rw [feats_lhs_apply, feats_rhs_apply]

/-- The score of service topic i against request topic j in row b: the features' inner product. -/
theorem scores_apply (fr fs : FVec Ideal S16x256x256 .f32) (b : Fin 16) (i j : Fin 256) :
    scores (F := Ideal) fr fs (ix3 b i j) = ∑ k : Fin 256, fs (ix3 b i k) * fr (ix3 b j k) := by
  unfold scores
  simp only [matmul]
  rw [Ideal.matmul_constant_zero_apply, ← Equiv.sum_comp (ValueIdx.contrEquiv1 dot_S16x256x256_S16x256x256_S16x256x256_2_2_1_1_0_0 256 rfl rfl).symm]
  refine Finset.sum_congr rfl fun k _ => ?_
  have hk := ValueIdx.contrEquiv1_symm_val dot_S16x256x256_S16x256x256_S16x256x256_2_2_1_1_0_0 256 rfl rfl k
  have el : dot_S16x256x256_S16x256x256_S16x256x256_2_2_1_1_0_0.lhsIdx (ix3 b i j) ((ValueIdx.contrEquiv1 dot_S16x256x256_S16x256x256_S16x256x256_2_2_1_1_0_0 256 rfl rfl).symm k) = ix3 b i k := funext fun a => Fin.ext (by
    match a with
    | ⟨0, _⟩ => exact lhs_sc_0 _ _
    | ⟨1, _⟩ => exact lhs_sc_1 _ _
    | ⟨2, _⟩ => exact (lhs_sc_2 _ _).trans hk)
  have er : dot_S16x256x256_S16x256x256_S16x256x256_2_2_1_1_0_0.rhsIdx (ix3 b i j) ((ValueIdx.contrEquiv1 dot_S16x256x256_S16x256x256_S16x256x256_2_2_1_1_0_0 256 rfl rfl).symm k) = ix3 b j k := funext fun a => Fin.ext (by
    match a with
    | ⟨0, _⟩ => exact rhs_sc_0 _ _
    | ⟨1, _⟩ => exact rhs_sc_1 _ _
    | ⟨2, _⟩ => exact (rhs_sc_2 _ _).trans hk)
  rw [el, er]
  rfl

/-- The attended request features of service topic i in row b: the softmax weights e / d against the request features. -/
theorem attended_apply (fr e : FVec Ideal S16x256x256 .f32) (d : FVec Ideal S16x256x1 .f32) (b : Fin 16) (i k : Fin 256) :
    attended (F := Ideal) fr e d (ix3 b i k)
      = ∑ j : Fin 256, Ideal.div (e (ix3 b i j)) (d (ix3 b i (0 : Fin 1))) * fr (ix3 b j k) := by
  unfold attended
  simp only [matmul]
  rw [Ideal.matmul_constant_zero_apply, ← Equiv.sum_comp (ValueIdx.contrEquiv1 dot_S16x256x256_S16x256x256_S16x256x256_2_1_1_2_0_0 256 rfl rfl).symm]
  refine Finset.sum_congr rfl fun j _ => ?_
  have hj := ValueIdx.contrEquiv1_symm_val dot_S16x256x256_S16x256x256_S16x256x256_2_1_1_2_0_0 256 rfl rfl j
  have el : dot_S16x256x256_S16x256x256_S16x256x256_2_1_1_2_0_0.lhsIdx (ix3 b i k) ((ValueIdx.contrEquiv1 dot_S16x256x256_S16x256x256_S16x256x256_2_1_1_2_0_0 256 rfl rfl).symm j) = ix3 b i j := funext fun a => Fin.ext (by
    match a with
    | ⟨0, _⟩ => exact lhs_at_0 _ _
    | ⟨1, _⟩ => exact lhs_at_1 _ _
    | ⟨2, _⟩ => exact (lhs_at_2 _ _).trans hj)
  have er : dot_S16x256x256_S16x256x256_S16x256x256_2_1_1_2_0_0.rhsIdx (ix3 b i k) ((ValueIdx.contrEquiv1 dot_S16x256x256_S16x256x256_S16x256x256_2_1_1_2_0_0 256 rfl rfl).symm j) = ix3 b j k := funext fun a => Fin.ext (by
    match a with
    | ⟨0, _⟩ => exact rhs_at_0 _ _
    | ⟨1, _⟩ => exact (rhs_at_1 _ _).trans hj
    | ⟨2, _⟩ => exact rhs_at_2 _ _)
  rw [el, er]
  show Ideal.div (e (ix3 b i j)) (broadcastTo S16x256x256 d broadcasts_S16x256x1_S16x256x256 (ix3 b i j)) * fr (ix3 b j k) = _
  rw [broadcastTo_unitLast_apply]

end Cert.KernelIdeal.Chunk

end
-- ==== Proof.KStagesB.lean ====
/-
  Four stages of the sub-chunk, read at an index at the ideal values.

  For a [16,256,256] array a of scores, e of shifted exponentials, or of features, and [16,256] arrays p, q of mean
  features, over the extended reals:
    shifted a (b, i, j)  = exp (a (b, i, j) - max (-inf, the maximum over j' of a (b, i, j') started from -inf))
    norml e (b, i, 0)    = the sum over j of e (b, i, j)
    meanT a (b, f)       = (the sum over t of a (b, t, f)) / 256
    cosine p q (0, b)    = <p b, q b> / max (sqrt <p b, p b> * sqrt <q b, q b>, eps) * 3
  Each stage is a lane reduction (a sum or a maximum along one axis) wrapped in operations that only move entries
  (a unit axis added, an array repeated along a unit axis, a row laid out as a 1 x 16 array) and in entrywise
  arithmetic. So each proof has three kinds of step: where an entry is moved from, what the reduction is at a reduced
  index (a sum or a fold of max over the coordinates of the reduced axis), and what the entrywise arithmetic is at one
  entry. The last kind is stated for arbitrary arrays and arbitrary constant words, and used by substitution.
-/
import proofs.«117190_j58067957842619_1_alg».proof.Proof.Chunk
import proofs.«117190_j58067957842619_1_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section

namespace Cert.KernelIdeal.Chunk
open Idealize.ShloMosaic Idealize.SL.Sem Cert.KernelIdeal Cert.KernelIdeal.Gen Idealize.ShloMosaic.ValueIdx

namespace StagesB

/-! ### Where a reduced index sits in the array it was reduced from -/

/-- The reduced index (b, i) with the coordinate k put back on the last axis is (b, i, k). -/
theorem lift_last (b : Fin 16) (i k : Fin 256) :
    reduces_S16x256x256_S16x256.lift (ix2 b i) k = ix3 b i k :=
  funext fun a => Fin.ext (by match a with | ⟨0, _⟩ => rfl | ⟨1, _⟩ => rfl | ⟨2, _⟩ => rfl)

/-- The reduced index (b, f) with the coordinate t put back on the middle axis is (b, t, f). -/
theorem lift_mid (b : Fin 16) (f t : Fin 256) :
    reduces_S16x256x256_S16x256_2.lift (ix2 b f) t = ix3 b t f :=
  funext fun a => Fin.ext (by match a with | ⟨0, _⟩ => rfl | ⟨1, _⟩ => rfl | ⟨2, _⟩ => rfl)

/-- The reduced index b with the coordinate k put back on the second axis is (b, k). -/
theorem lift_row (b : Fin 16) (k : Fin 256) :
    reduces_S16x256_S16.lift (ix1 b) k = ix2 b k :=
  funext fun a => Fin.ext (by match a with | ⟨0, _⟩ => rfl | ⟨1, _⟩ => rfl)

/-! ### Operations that only move entries -/

/-- A [16,256] array given a trailing unit axis reads, at (b, i, 0), the array at (b, i): both entries sit at
    row-major position 256 b + i. -/
theorem keep_apply {α : Type} (v : S16x256.Idx → α) (b : Fin 16) (i : Fin 256) :
    shapeCast S16x256x1 v shapeCasts_S16x256_S16x256x1 (ix3 b i (0 : Fin 1)) = v (ix2 b i) :=
  shapeCast_apply v shapeCasts_S16x256_S16x256x1 _ _ (by
    rw [Shape.rowMajor_val_two, Shape.rowMajor_val_three]
    show b.val * 256 + i.val = (b.val * 256 + i.val) * 1 + 0
    omega)

/-- A [16,256,1] array repeated along its unit axis reads, at (b, i, j), the array at (b, i, 0). -/
theorem spread_apply {α : Type} (d : S16x256x1.Idx → α) (b : Fin 16) (i j : Fin 256) :
    broadcastTo S16x256x256 d broadcasts_S16x256x1_S16x256x256 (ix3 b i j) = d (ix3 b i (0 : Fin 1)) :=
  broadcastTo_apply d broadcasts_S16x256x1_S16x256x256 _ _ (fun a => by
    match a with | ⟨0, _⟩ => rfl | ⟨1, _⟩ => rfl | ⟨2, _⟩ => rfl)

/-! ### The lane reductions at a reduced index -/

/-- The sum of a [16,256,256] array over its last axis, at (b, i): the sum over k of the array at (b, i, k). -/
theorem sumLast_apply (e : FVec Ideal S16x256x256 .f32) (b : Fin 16) (i : Fin 256) :
    multiReduction (F := Ideal) .add [2] S16x256 e 0x00000000#32 reduces_S16x256x256_S16x256 (.inl rfl) rfl (ix2 b i)
      = ∑ k : Fin 256, e (ix3 b i k) :=
  (Ideal.multiReduction_add_single e _ reduces_S16x256x256_S16x256 _ _ (ix2 b i)).trans
    (Finset.sum_congr rfl fun k _ => congrArg e (lift_last b i k))

/-- The sum of a [16,256,256] array over its middle axis, at (b, f): the sum over t of the array at (b, t, f). -/
theorem sumMid_apply (a : FVec Ideal S16x256x256 .f32) (b : Fin 16) (f : Fin 256) :
    multiReduction (F := Ideal) .add [1] S16x256 a 0x00000000#32 reduces_S16x256x256_S16x256_2 (.inl rfl) rfl (ix2 b f)
      = ∑ t : Fin 256, a (ix3 b t f) :=
  (Ideal.multiReduction_add_single a _ reduces_S16x256x256_S16x256_2 _ _ (ix2 b f)).trans
    (Finset.sum_congr rfl fun t _ => congrArg a (lift_mid b f t))

/-- The sum of a [16,256] array over its second axis, at b: the sum over k of the array at (b, k). -/
theorem sumRow_apply (u : FVec Ideal S16x256 .f32) (b : Fin 16) :
    multiReduction (F := Ideal) .add [1] S16 u 0x00000000#32 reduces_S16x256_S16 (.inl rfl) rfl (ix1 b)
      = ∑ k : Fin 256, u (ix2 b k) :=
  (Ideal.multiReduction_add_single u _ reduces_S16x256_S16 _ _ (ix1 b)).trans
    (Finset.sum_congr rfl fun k _ => congrArg u (lift_row b k))

/-- The sum of an entrywise product over the second axis, at b: the dot product of the two rows b. -/
theorem dotRow_apply (u v : FVec Ideal S16x256 .f32) (b : Fin 16) :
    multiReduction (F := Ideal) .add [1] S16 (mulf u v) 0x00000000#32 reduces_S16x256_S16 (.inl rfl) rfl (ix1 b)
      = ∑ k : Fin 256, u (ix2 b k) * v (ix2 b k) :=
  sumRow_apply (mulf u v) b

/-- The maximum of a [16,256,256] array over its last axis, at (b, i): the fold of max, started from minus
    infinity, over the array at (b, i, k). -/
theorem maxLast_apply (a : FVec Ideal S16x256x256 .f32) (b : Fin 16) (i : Fin 256) :
    multiReduction (F := Ideal) .maximumf [2] S16x256 a 0xFF800000#32 reduces_S16x256x256_S16x256 (.inl rfl) rfl (ix2 b i)
      = (Finset.univ : Finset (Fin 256)).fold max Cert.Row.negInf (fun k => a (ix3 b i k)) :=
  (Ideal.multiReduction_maximumf_single a _ reduces_S16x256x256_S16x256 _ _ (ix2 b i)).trans
    (Finset.fold_congr fun k _ => congrArg a (lift_last b i k))

/-! ### Entrywise arithmetic at one entry, for arbitrary arrays and constant words -/

/-- exp of a difference of two arrays, at an index: exp of the difference of the two entries. -/
theorem expSub_apply {s : Shape} (x y : FVec Ideal s .f32) (idx : s.Idx) :
    exp (subf x y) idx = Ideal.exp (x idx - y idx) := rfl

/-- The entrywise maximum of the constant array of the word w with an array, at an index. -/
theorem maxWord_apply {s : Shape} (w : BitVec (FTy.bits .f32)) (m : FVec Ideal s .f32) (idx : s.Idx) :
    maximumf (broadcast s (Scalar.ofBits .f32 w)) m idx = max (Ideal.ofBits .f32 w) (m idx) := rfl

/-- An array divided entrywise by the constant array of the word w, at an index. -/
theorem divWord_apply {s : Shape} (w : BitVec (FTy.bits .f32)) (m : FVec Ideal s .f32) (idx : s.Idx) :
    divf m (broadcast s (Scalar.ofBits .f32 w)) idx = Ideal.div (m idx) (Ideal.ofBits .f32 w) := rfl

/-- The arithmetic that ends the cosine, at an index: n / max (sqrt x * sqrt y, the word we) * the word ws,
    entry by entry. -/
theorem cosTail_apply {s : Shape} (n x y : FVec Ideal s .f32) (we ws : BitVec (FTy.bits .f32)) (idx : s.Idx) :
    mulf (divf n (maximumf (mulf (sqrt x) (sqrt y)) (broadcast s (Scalar.ofBits .f32 we)))) (broadcast s (Scalar.ofBits .f32 ws)) idx
      = Ideal.div (n idx) (max (Ideal.sqrt (x idx) * Ideal.sqrt (y idx)) (Ideal.ofBits .f32 we)) * Ideal.ofBits .f32 ws := rfl

end StagesB

/-- The shifted exponential at (b, i, j): the entry is exp of a (b, i, j) minus a number that depends on (b, i)
    only. That number is read through the repeat along the unit axis and the added unit axis back to the [16,256]
    array of row maxima at (b, i), which is the maximum of minus infinity with the lane maximum over the last axis. -/
theorem shifted_apply (a : FVec Ideal S16x256x256 .f32) (b : Fin 16) (i j : Fin 256) :
    shifted (F := Ideal) a (ix3 b i j)
      = Ideal.exp (a (ix3 b i j)
          - max Cert.Row.negInf ((Finset.univ : Finset (Fin 256)).fold max Cert.Row.negInf (fun j' => a (ix3 b i j')))) := by
  unfold shifted
  refine (StagesB.expSub_apply a _ (ix3 b i j)).trans ?_
  refine congrArg (fun x => Ideal.exp (a (ix3 b i j) - x)) ?_
  refine (StagesB.spread_apply _ b i j).trans ?_
  refine (StagesB.keep_apply _ b i).trans ?_
  refine (StagesB.maxWord_apply 0xFF800000#32 _ (ix2 b i)).trans ?_
  exact congrArg (fun x => max Cert.Row.negInf x) (StagesB.maxLast_apply a b i)

/-- The normaliser at (b, i, 0): the added unit axis reads the [16,256] array of lane sums at (b, i). -/
theorem norml_apply (e : FVec Ideal S16x256x256 .f32) (b : Fin 16) (i : Fin 256) :
    norml (F := Ideal) e (ix3 b i (0 : Fin 1)) = ∑ j : Fin 256, e (ix3 b i j) := by
  unfold norml
  exact (StagesB.keep_apply _ b i).trans (StagesB.sumLast_apply e b i)

/-- The mean over the topics at (b, f): the lane sum over the middle axis at (b, f), divided by the word for 256. -/
theorem meanT_apply (a : FVec Ideal S16x256x256 .f32) (b : Fin 16) (f : Fin 256) :
    meanT (F := Ideal) a (ix2 b f) = Ideal.div (∑ t : Fin 256, a (ix3 b t f)) Cert.Row.nTopics := by
  unfold meanT
  refine (StagesB.divWord_apply 0x43800000#32 _ (ix2 b f)).trans ?_
  exact congrArg (fun x => Ideal.div x Cert.Row.nTopics) (StagesB.sumMid_apply a b f)

/-- The cosine at (0, b): the 1 x 16 layout reads the length-16 array at b, whose entry is the closing arithmetic
    applied to three dot products of rows b. -/
theorem cosine_apply (p q : FVec Ideal S16x256 .f32) (b : Fin 16) :
    cosine (F := Ideal) p q (ix2 (0 : Fin 1) b)
      = Ideal.div (∑ k : Fin 256, p (ix2 b k) * q (ix2 b k))
          (max (Ideal.sqrt (∑ k : Fin 256, p (ix2 b k) * p (ix2 b k)) * Ideal.sqrt (∑ k : Fin 256, q (ix2 b k) * q (ix2 b k)))
            Cert.Row.eps) * Cert.Row.three := by
  unfold cosine
  refine (shapeCast_a_1a_apply _ shapeCasts_S16_S1x16 (0 : Fin 1) b).trans ?_
  refine (StagesB.cosTail_apply _ _ _ 0x322BCC77#32 0x40400000#32 (ix1 b)).trans ?_
  rw [StagesB.dotRow_apply p q b, StagesB.dotRow_apply p p b, StagesB.dotRow_apply q q b]

end Cert.KernelIdeal.Chunk

end
-- ==== Proof.ChunkRow.lean ====
/-
  One sub-chunk of the kernel at a lane is the row mathematics of that lane's batch row.

  The sub-chunk's stages, each read at an index at the ideal values — the features as the linear layer on the scaled
  topic embeddings, the scores as sums of feature products, the shifted exponentials against the row maximum, their
  normaliser, the attended features, the two means over the topics and the cosine — compose, lane by lane, to the
  specification's `Cert.Row.out` of the lane's request row and service row. Nothing but unfolding joins them: the
  sub-chunk computes the specification's terms in the specification's order.
-/
import proofs.«117190_j58067957842619_1_alg».proof.Proof.KStagesA
import proofs.«117190_j58067957842619_1_alg».proof.Proof.KStagesB

noncomputable section

namespace Cert.KernelIdeal.Chunk

open Idealize.ShloMosaic Idealize.SL.Sem Cert.KernelIdeal Cert.KernelIdeal.Gen Idealize.ShloMosaic.ValueIdx

/-- One sub-chunk, lane `b`: the stages composed are the row mathematics of request row `b` against service row `b`
    of the sub-chunk — features, scores, the row maximum and the shifted exponentials, their normaliser, the attended
    features, the two means and the cosine, each read at its index. -/
theorem chunk_row (te : Vec Ideal S300x256 .f32) (w : Vec Ideal S256x300 .f32) (bias : Vec Ideal S1x256 .f32)
    (rq ws : Vec Ideal S16x256 .f32) (b : Fin 16) :
    chunk (F := Ideal) te w bias rq ws (ix2 (0 : Fin 1) b)
      = Cert.Row.out (fun t => rq (ix2 b t)) (fun t => ws (ix2 b t)) (fun e t => te (ix2 e t)) (fun f e => w (ix2 f e))
          (fun f => bias (ix2 (0 : Fin 1) f)) := by
  unfold chunk
  rw [cosine_apply]
  simp only [meanT_apply, attended_apply, norml_apply, shifted_apply, scores_apply, feats_apply]
  unfold Cert.Row.out Cert.Row.aveReq Cert.Row.aveMix Cert.Row.mix Cert.Row.prob Cert.Row.den Cert.Row.ex Cert.Row.rowMax
    Cert.Row.att
  rfl

end Cert.KernelIdeal.Chunk

end
-- ==== Proof.Blocks.lean ====
/-
  The idealized kernel's result, entry by entry.

  The region walks the 1024 batch rows in 8 grid blocks of 128 rows. At a grid point the body finds the point's 128
  rows of the request and service weights and the whole embedding table, weight matrix and bias row, and leaves the
  output block, one row of 128 lanes, by eight stores of 16 lanes, each the sub-chunk function of its own 16 rows.
  So lane `p` of the block holds the score of the block's row `p` (`out0_5_apply`: every store agrees with that one
  function of the lane, and the stores tile the block); a block's row `p` at point `t` is row `128 t + p` of the array,
  and the other three blocks are their whole arrays, so what point `t` writes back is lane block `t` of the whole
  output row (`flushed_eq`); the eight lane blocks cover the row (`cover`), hence the row after the region holds
  every batch row's score (`final`). Around the region the host only reshapes: the bias vector to one row before it,
  the output row to a vector after it (`biasArr_eq`, `result_eq`), so entry `B` of the program's result is the score
  of batch row `B` of the argument arrays (`result_apply`, `run`).
-/
import proofs.«117190_j58067957842619_1_alg».proof.Proof.Gen.KernelIdeal.Frame
import proofs.«117190_j58067957842619_1_alg».proof.Proof.ChunkRow
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.SL.Sem Cert.KernelIdeal Cert.KernelIdeal.Gen Cert.KernelIdeal.Chunk Idealize.ShloMosaic.ValueIdx
open Idealize.ShloMosaic.Pipeline (Dat Cfg Window)

/-- Row `p` of a grid block: the score of the block's request row `p` against its service row `p`. -/
def blockRow (x0 x1 : Vec Ideal S128x256 .f32) (x2 : Vec Ideal S300x256 .f32) (x3 : Vec Ideal S256x300 .f32)
    (x4 : Vec Ideal S1x256 .f32) (p : Fin 128) : EReal :=
  Cert.Row.out (fun t => x0 (ix2 p t)) (fun t => x1 (ix2 p t)) (fun e t => x2 (ix2 e t)) (fun f e => x3 (ix2 f e))
    (fun f => x4 (ix2 (0 : Fin 1) f))

theorem hz : (![0, 0] : Fin 2 → Nat) = fun _ => 0 := funext fun a => by fin_cases a <;> rfl

/-- The sub-chunk that loads rows o .. o+15 of the two blocks and stores lanes o .. o+15 of the output row holds, at
    lane o + b, the score of row o + b. -/
theorem piece_eq (o : Nat) (inbL : ∀ a, (![o, 0] : Fin 2 → Nat) a + S16x256.size a ≤ S128x256.size a)
    (inbS : ∀ a, (![0, o] : Fin 2 → Nat) a + S1x16.size a ≤ S1x128.size a)
    (x0 x1 : Vec Ideal S128x256 .f32) (x2 : Vec Ideal S300x256 .f32) (x3 : Vec Ideal S256x300 .f32) (x4 : Vec Ideal S1x256 .f32)
    (x : S1x16.Idx) :
    chunk (F := Ideal) (View.ld x2 r0_0) (View.ld x3 r0_1) (View.ld x4 r0_2)
        (View.ld x0 (Rect.unit (s := S128x256) ![o, 0] S16x256.size inbL)) (View.ld x1 (Rect.unit (s := S128x256) ![o, 0] S16x256.size inbL)) x
      = (fun y : S1x128.Idx => blockRow x0 x1 x2 x3 x4 ⟨(y 1).val, (y 1).isLt⟩)
          ((Rect.unit (s := S1x128) ![0, o] S1x16.size inbS).emb x) := by
  obtain ⟨z, b, rfl⟩ : ∃ (z : Fin 1) (b : Fin 16), x = ix2 z b := ⟨x 0, x 1, eq_ix2 x⟩
  obtain rfl : z = 0 := Subsingleton.elim _ _
  rw [chunk_row, View.ld_unit_zero (S := S300x256) hz, View.ld_unit_zero (S := S256x300) hz, View.ld_unit_zero (S := S1x256) hz]
  have hb : b.val < 16 := b.isLt
  have ho : o + 16 ≤ 128 := inbL 0
  have hrow : ∀ (X : Vec Ideal S128x256 .f32) (t : Fin 256),
      View.ld X (Rect.unit (s := S128x256) ![o, 0] S16x256.size inbL) (ix2 b t) = X (ix2 ⟨o + b.val, by omega⟩ t) := by
    intro X t
    show X ((Rect.unit (s := S128x256) ![o, 0] S16x256.size inbL).emb (ix2 b t)) = _
    refine congrArg X (funext fun a => Fin.ext ?_)
    match a with
    | ⟨0, _⟩ => show o + 1 * b.val = o + b.val; omega
    | ⟨1, _⟩ => show 0 + 1 * t.val = t.val; omega
  have hlane : (⟨(((Rect.unit (s := S1x128) ![0, o] S1x16.size inbS).emb (ix2 (0 : Fin 1) b)) 1).val,
      (((Rect.unit (s := S1x128) ![0, o] S1x16.size inbS).emb (ix2 (0 : Fin 1) b)) 1).isLt⟩ : Fin 128) = ⟨o + b.val, by omega⟩ :=
    Fin.ext (by show o + 1 * b.val = o + b.val; omega)
  show _ = blockRow x0 x1 x2 x3 x4 _
  rw [hlane]
  unfold blockRow
  exact congrArg₂ (fun r s : Fin 256 → EReal => Cert.Row.out r s (fun e t => x2 (ix2 e t)) (fun f e => x3 (ix2 f e))
      (fun f => x4 (ix2 (0 : Fin 1) f))) (funext fun t => hrow x0 t) (funext fun t => hrow x1 t)

/-- What the body leaves in the output block: lane `p` holds the score of the blocks' row `p`. -/
theorem out0_5_apply (x0 x1 : Vec Ideal S128x256 .f32) (x2 : Vec Ideal S300x256 .f32) (x3 : Vec Ideal S256x300 .f32)
    (x4 : Vec Ideal S1x256 .f32) (y : S1x128.Idx) :
    out0_5 (F := Ideal) x0 x1 x2 x3 x4 y = blockRow x0 x1 x2 x3 x4 ⟨(y 1).val, (y 1).isLt⟩ := by
  unfold out0_5
  refine View.canon_apply_of_pieces (Val := Elt Ideal) (S := S1x128) (e := .f32)
    (fun y : S1x128.Idx => blockRow x0 x1 x2 x3 x4 ⟨(y 1).val, (y 1).isLt⟩) _ ?_ y
    (cover0_5 _ _ _ _ _ _ _ _ y)
  intro p hp x
  simp only [List.mem_cons, List.mem_nil_iff, or_false] at hp
  rcases hp with rfl | rfl | rfl | rfl | rfl | rfl | rfl | rfl
  · exact piece_eq 112 inb_S128x256_S16x256_112_0 inb_S1x128_S1x16_0_112 x0 x1 x2 x3 x4 x
  · exact piece_eq 96 inb_S128x256_S16x256_96_0 inb_S1x128_S1x16_0_96 x0 x1 x2 x3 x4 x
  · exact piece_eq 80 inb_S128x256_S16x256_80_0 inb_S1x128_S1x16_0_80 x0 x1 x2 x3 x4 x
  · exact piece_eq 64 inb_S128x256_S16x256_64_0 inb_S1x128_S1x16_0_64 x0 x1 x2 x3 x4 x
  · exact piece_eq 48 inb_S128x256_S16x256_48_0 inb_S1x128_S1x16_0_48 x0 x1 x2 x3 x4 x
  · exact piece_eq 32 inb_S128x256_S16x256_32_0 inb_S1x128_S1x16_0_32 x0 x1 x2 x3 x4 x
  · exact piece_eq 16 inb_S128x256_S16x256_16_0 inb_S1x128_S1x16_0_16 x0 x1 x2 x3 x4 x
  · exact piece_eq 0 inb_S128x256_S16x256_0_0 inb_S1x128_S1x16_0_0 x0 x1 x2 x3 x4 x

variable (m : (ℓ : Loc nD τ sig) → Buf (Elt Ideal) ℓ) (ρ : Dev nD → PrngReg)

/-- The arrays the region reads, as it finds them, at their literal types. -/
abbrev reqArr (c : Dev nD) : Vec Ideal S1024x256 .f32 := V m c main_arg0
abbrev svcArr (c : Dev nD) : Vec Ideal S1024x256 .f32 := V m c main_arg1
abbrev embArr (c : Dev nD) : Vec Ideal S300x256 .f32 := V m c main_arg2
abbrev wgtArr (c : Dev nD) : Vec Ideal S256x300 .f32 := V m c main_arg3
abbrev biasArr (c : Dev nD) : Vec Ideal S1x256 .f32 := V m c main_call0_v0
/-- Their blocks at grid point `t`. -/
abbrev reqBlk (c : Dev nD) (t : Fin cfg0.N) : Vec Ideal S128x256 .f32 := iblk m c 0 t
abbrev svcBlk (c : Dev nD) (t : Fin cfg0.N) : Vec Ideal S128x256 .f32 := iblk m c 1 t
abbrev embBlk (c : Dev nD) (t : Fin cfg0.N) : Vec Ideal S300x256 .f32 := iblk m c 2 t
abbrev wgtBlk (c : Dev nD) (t : Fin cfg0.N) : Vec Ideal S256x300 .f32 := iblk m c 3 t
abbrev biasBlk (c : Dev nD) (t : Fin cfg0.N) : Vec Ideal S1x256 .f32 := iblk m c 4 t

/-- The whole output row: lane `B` holds the score of request row `B` against service row `B`. -/
def wholeRow (a0 a1 : Vec Ideal S1024x256 .f32) (a2 : Vec Ideal S300x256 .f32) (a3 : Vec Ideal S256x300 .f32)
    (a4 : Vec Ideal S1x256 .f32) : Vec Ideal S1x1024 .f32 :=
  fun i => Cert.Row.out (fun t => a0 (ix2 ⟨(i 1).val, (i 1).isLt⟩ t)) (fun t => a1 (ix2 ⟨(i 1).val, (i 1).isLt⟩ t))
    (fun e t => a2 (ix2 e t)) (fun f e => a3 (ix2 f e)) (fun f => a4 (ix2 (0 : Fin 1) f))

/-- The index maps over the grid: point `t` takes row block `t` of the two weight arrays, the whole of the table, the
    layer and the bias, and writes lane block `t` of the output row. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem pt_lt (t : Fin cfg0.N) : t.val < 8 := lt_of_lt_of_eq t.isLt N_0

theorem reqBlk_apply (c : Dev nD) (t : Fin cfg0.N) (p : Fin 128) (q : Fin 256) :
    reqBlk m c t (ix2 p q) = reqArr m c (ix2 ⟨128 * t.val + p.val, by have := pt_lt t; have := p.isLt; omega⟩ q) := by
  obtain ⟨e0, e1, -⟩ := idx_facts t
  show V m c main_arg0 (((cfg0.win 0).blk t).view.emb (ix2 p q)) = _
  refine congrArg (V m c main_arg0) (funext fun a => Fin.ext ?_)
  match a with
  | ⟨0, _⟩ => show win0_0.index t (0 : Fin 2) * 128 + 1 * p.val = 128 * t.val + p.val; rw [e0]; omega
  | ⟨1, _⟩ => show win0_0.index t (1 : Fin 2) * 256 + 1 * q.val = q.val; rw [e1]; omega

theorem svcBlk_apply (c : Dev nD) (t : Fin cfg0.N) (p : Fin 128) (q : Fin 256) :
    svcBlk m c t (ix2 p q) = svcArr m c (ix2 ⟨128 * t.val + p.val, by have := pt_lt t; have := p.isLt; omega⟩ q) := by
  obtain ⟨-, -, e0, e1, -⟩ := idx_facts t
  show V m c main_arg1 (((cfg0.win 1).blk t).view.emb (ix2 p q)) = _
  refine congrArg (V m c main_arg1) (funext fun a => Fin.ext ?_)
  match a with
  | ⟨0, _⟩ => show win0_1.index t (0 : Fin 2) * 128 + 1 * p.val = 128 * t.val + p.val; rw [e0]; omega
  | ⟨1, _⟩ => show win0_1.index t (1 : Fin 2) * 256 + 1 * q.val = q.val; rw [e1]; omega

theorem embBlk_eq (c : Dev nD) (t : Fin cfg0.N) : embBlk m c t = embArr m c := by
  obtain ⟨-, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 300 + 1 * (y 0).val = (y 0).val; rw [e0]; omega
  | ⟨1, _⟩ => show win0_2.index t (1 : Fin 2) * 256 + 1 * (y 1).val = (y 1).val; rw [e1]; omega

theorem wgtBlk_eq (c : Dev nD) (t : Fin cfg0.N) : wgtBlk m c t = wgtArr m c := by
  obtain ⟨-, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; rw [e0]; omega
  | ⟨1, _⟩ => show win0_3.index t (1 : Fin 2) * 300 + 1 * (y 1).val = (y 1).val; rw [e1]; omega

theorem biasBlk_eq (c : Dev nD) (t : Fin cfg0.N) : biasBlk m c t = biasArr m c := by
  obtain ⟨-, -, -, -, -, -, -, -, e0, e1, -⟩ := idx_facts t
  funext y
  show V m c main_call0_v0 (((cfg0.win 4).blk t).view.emb y) = V m c main_call0_v0 y
  refine congrArg (V m c main_call0_v0) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Equal row data give equal scores. -/
theorem out_congr {r r' s s' : Fin 256 → EReal} {te te' : Fin 300 → Fin 256 → EReal} {w w' : Fin 256 → Fin 300 → EReal}
    {bv bv' : Fin 256 → EReal} (hr : r = r') (hs : s = s') (hte : te = te') (hw : w = w') (hbv : bv = bv') :
    Cert.Row.out r s te w bv = Cert.Row.out r' s' te' w' bv' := by subst hr hs hte hw hbv; rfl

/-- WHAT POINT `t` WRITES BACK is lane block `t` of the whole output row. -/
theorem flushed_eq (c : Dev nD) (t : Fin cfg0.N) :
    (dats m 0 c).flushed 5 t
      = ((cfg0.win 5).blk t).view.read (Elt Ideal) (wholeRow (reqArr m c) (svcArr m c) (embArr m c) (wgtArr m c) (biasArr m c)) := by
  show (cfg0.win 5).cut (grid0.coords t) ((dats m 0 c).after 5 t) = _
  rw [after0_5]
  funext y
  show out0_5 (reqBlk m c t) (svcBlk m c t) (embBlk m c t) (wgtBlk m c t) (biasBlk m c t) y
    = wholeRow (reqArr m c) (svcArr m c) (embArr m c) (wgtArr m c) (biasArr m c) (((cfg0.win 5).blk t).view.emb y)
  refine (out0_5_apply (reqBlk m c t) (svcBlk m c t) (embBlk m c t) (wgtBlk m c t) (biasBlk m c t) y).trans ?_
  obtain ⟨-, -, -, -, -, -, -, -, -, -, -, e51⟩ := idx_facts t
  have hy : (y 1).val < 128 := (y 1).isLt
  have ht := pt_lt t
  have hl : (⟨128 * t.val + (y 1).val, by omega⟩ : Fin 1024)
      = ⟨((((cfg0.win 5).blk t).view.emb y) 1).val, ((((cfg0.win 5).blk t).view.emb y) 1).isLt⟩ :=
    Fin.ext (by show 128 * t.val + (y 1).val = win0_5.index t (1 : Fin 2) * 128 + 1 * (y 1).val; rw [e51]; omega)
  unfold blockRow wholeRow
  refine out_congr ?_ ?_ ?_ ?_ ?_
  · exact funext fun q => (reqBlk_apply m c t ⟨(y 1).val, hy⟩ q).trans (congrArg (fun B => reqArr m c (ix2 B q)) hl)
  · exact funext fun q => (svcBlk_apply m c t ⟨(y 1).val, hy⟩ q).trans (congrArg (fun B => svcArr m c (ix2 B q)) hl)
  · exact funext fun e => funext fun q => congrFun (embBlk_eq m c t) (ix2 e q)
  · exact funext fun f => funext fun e => congrFun (wgtBlk_eq m c t) (ix2 f e)
  · exact funext fun f => congrFun (biasBlk_eq m c t) (ix2 (0 : Fin 1) f)

/-- An index of the output row is in point `t`'s block iff each coordinate is in the block's range on its axis. -/
theorem mem_blk (t : Fin cfg0.N) (i : S1x1024.Idx) :
    i ∈ ((cfg0.win 5).blk t).view.set
      ↔ ∀ a : Fin 2, win0_5.index t a * S1x128.size a ≤ (i a).val ∧ (i a).val < win0_5.index t a * S1x128.size a + S1x128.size a := by
  show i ∈ ((View.whole main_call0_v1).slice (win0_5.rect t)).set ↔ _
  rw [View.set_slice_whole, Rect.mem_set_unit]
  exact Iff.rfl

/-- Every lane is in the block of the point that is the lane's number divided by 128. -/
theorem cover (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  have hN : (i 1).val / 128 < cfg0.N := by rw [show cfg0.N = 8 from N_0]; omega
  refine ⟨⟨(i 1).val / 128, hN⟩, flush0_5 _, ?_⟩
  obtain ⟨-, -, -, -, -, -, -, -, -, -, e50, e51⟩ := idx_facts ⟨(i 1).val / 128, hN⟩
  rw [mem_blk]
  intro a
  match a with
  | ⟨0, _⟩ =>
    show win0_5.index ⟨(i 1).val / 128, hN⟩ (0 : Fin 2) * 1 ≤ (i 0).val ∧ (i 0).val < win0_5.index ⟨(i 1).val / 128, hN⟩ (0 : Fin 2) * 1 + 1
    rw [e50]; omega
  | ⟨1, _⟩ =>
    show win0_5.index ⟨(i 1).val / 128, hN⟩ (1 : Fin 2) * 128 ≤ (i 1).val ∧ (i 1).val < win0_5.index ⟨(i 1).val / 128, hN⟩ (1 : Fin 2) * 128 + 128
    rw [e51]; show (i 1).val / 128 * 128 ≤ (i 1).val ∧ (i 1).val < (i 1).val / 128 * 128 + 128; omega

/-- THE OUTPUT ROW after the region: every lane at its batch row's score. -/
theorem final (c : Dev nD) :
    (dats m 0 c).arrAt 5 cfg0.N = wholeRow (reqArr m c) (svcArr m c) (embArr m c) (wgtArr m c) (biasArr m c) :=
  (dats m 0 c).arrAt_eq_of_cover 5 _ (fun t _ => flushed_eq m c t) cover

/-- The host reshapes the bias vector to one row before the region: the region finds that row. -/
theorem biasArr_eq (c : Dev nD) :
    biasArr m c = shapeCast S1x256 (m ((c : Thread nD τ).loc main_arg4)) shapeCasts_S256_S1x256 := by
  show StableHlo.after hostOps0 (fun b => m (c, b)) (Proc.devRef .tc main_call0_v0) = _
  after_results
  rfl

/-- The bias row at lane `f` is the bias vector at `f`. -/
theorem biasArr_apply (c : Dev nD) (f : Fin 256) :
    biasArr m c (ix2 (0 : Fin 1) f) = m ((c : Thread nD τ).loc main_arg4) (ix1 f) := by
  rw [biasArr_eq]
  exact shapeCast_a_1a_apply _ _ 0 f

/-- The host reshapes the output row to a vector after the region: that vector is the program's result. -/
theorem result_eq (c : Dev nD) :
    Pipeline.afterTail₀ cfgs (dats m) 0 (V0 m) [hostOps1] c main_v0
      = shapeCast S1024 ((dats m 0 c).arrAt 5 cfg0.N) shapeCasts_S1x1024_S1024 := by
  unfold Pipeline.afterTail₀
  show StableHlo.after hostOps1 _ (Proc.devRef .tc main_v0) = _
  after_results
  exact congrArg (fun X => shapeCast S1024 X shapeCasts_S1x1024_S1024)
    (Pipeline.withArrays_arr spec0 launch0.win.arr_inj c _ _ 5)

/-- The score of batch row `B` from the five argument arrays. -/
def rowScore (a0 a1 : Vec Ideal S1024x256 .f32) (a2 : Vec Ideal S300x256 .f32) (a3 : Vec Ideal S256x300 .f32)
    (a4 : Vec Ideal S256 .f32) (B : Fin 1024) : EReal :=
  Cert.Row.out (fun t => a0 (ix2 B t)) (fun t => a1 (ix2 B t)) (fun e t => a2 (ix2 e t)) (fun f e => a3 (ix2 f e))
    (fun f => a4 (ix1 f))

/-- THE RESULT of the idealized kernel: entry `B` is the score of batch row `B`. -/
theorem result_apply (c : Dev nD) (B : Fin 1024) :
    Pipeline.afterTail₀ cfgs (dats m) 0 (V0 m) [hostOps1] c main_v0 (ix1 B)
      = rowScore (m ((c : Thread nD τ).loc main_arg0)) (m ((c : Thread nD τ).loc main_arg1))
          (m ((c : Thread nD τ).loc main_arg2)) (m ((c : Thread nD τ).loc main_arg3)) (m ((c : Thread nD τ).loc main_arg4)) B := by
  rw [result_eq, final]
  refine (shapeCast_1a_a_apply _ _ B).trans ?_
  unfold wholeRow rowScore
  refine out_congr ?_ ?_ ?_ ?_ ?_
  · exact funext fun q => congrFun (V_main_arg0 m c) (ix2 B q)
  · exact funext fun q => congrFun (V_main_arg1 m c) (ix2 B q)
  · exact funext fun e => funext fun q => congrFun (V_main_arg2 m c) (ix2 e q)
  · exact funext fun f => funext fun e => congrFun (V_main_arg3 m c) (ix2 f e)
  · exact funext fun f => biasArr_apply m c f

/-- The idealized kernel's run with its result named: every weakly fair execution ends with entry `B` of the result
    at the score of batch row `B` of the arguments, and the arguments unchanged. -/
theorem run : θ_run defs (onTc (τ := τ) (main (F := Ideal))) ⟨m, fun _ => 0, ρ⟩ (fun r => ∀ c : Dev nD,
      r.2.mem ((c.tc : Thread nD τ).loc main_v0)
        = (fun i : S1024.Idx => rowScore (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (funext fun i => by
        rw [eq_ix1 i]; exact result_apply m c (i 0)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Blocks

end
-- ==== Proof.RefMix.lean ====
/-
  The reference program's stages, read at one batch row `B`, are the row mathematics of `Cert.Row`.

  With r = row B of the request weights, s = row B of the service weights, te the topic embedding table,
  w the linear layer and bv its bias:
    the scaled embeddings          (B, t, e)  ->  r t * te e t   (and  s t * te e t)
    the layer's output             (B, t, f)  ->  proj r t f     (and  proj s t f)
    the score tensor               (B, i, j)  ->  sum over k of proj r i k * proj s j k  =  att j i
    its maximum over the middle axis  (B, j)  ->  the fold of max over i of att j i, from minus infinity
    the shifted exponential        (B, j, i)  ->  ex i j
    its sum over the middle axis      (B, i)  ->  0 + sum over j of ex i j  =  den i
    the quotient                   (B, j, i)  ->  prob i j
    the attended features          (B, i, k)  ->  sum over j of prob i j * proj r j k  =  mix i k
  The reference indexes its score tensor (request topic, service topic) and normalises along the middle axis, so every
  stage between the scores and the attended features is the transpose of the specification's; the only law used is
  that a product of two extended reals commutes (once, under the score's sum). Each stage is read at explicit
  coordinates, and the composed index maps are identified with the coordinates axis by axis.
-/
import proofs.«117190_j58067957842619_1_alg».proof.Proof.Spec
import proofs.«117190_j58067957842619_1_alg».proof.Proof.Gen.ReferenceIdeal.Read
import Idealize.ShloMosaic.Lib.ValueIdx
import Idealize.ShloMosaic.Lib.Pipeline.Value
import Idealize.ShloMosaic.PureOps.Ideal.Laws
noncomputable section

namespace Cert.ReferenceIdeal.RefRow
open Idealize.ShloMosaic Idealize.SL.Sem Cert.ReferenceIdeal Cert.ReferenceIdeal.Gen Cert.ReferenceIdeal.Read Idealize.ShloMosaic.ValueIdx

variable (x0 x1 : (⟨S1024x256, .f32⟩ : BufTy).Contents (Elt Ideal)) (x2 : (⟨S300x256, .f32⟩ : BufTy).Contents (Elt Ideal))
  (x3 : (⟨S256x300, .f32⟩ : BufTy).Contents (Elt Ideal)) (x4 : (⟨S256, .f32⟩ : BufTy).Contents (Elt Ideal)) (B : Fin 1024)

/-- The request row's weight of topic `t` times the transposed embedding table's entry `(t, e)`. -/
private theorem v5_at (t : Fin 256) (e : Fin 300) :
    val_main_v5 (F := Ideal) x0 x2 (ix3 B t e) = x0 (ix2 B t) * x2 (ix2 e t) := by
  rw [val_main_v5_apply, val_main_v3_apply, val_main_v1_apply, val_main_v4_apply, val_main_v2_apply, val_main_v0_apply]
  have e1 : idx_main_v1 (idx_main_v3 (ix3 B t e)) = ix2 B t :=
    funext fun a => Fin.ext (by match a with | ⟨0, _⟩ => rfl | ⟨1, _⟩ => rfl)
  have e2 : idx_main_v0 (idx_main_v2 (idx_main_v4 (ix3 B t e))) = ix2 e t :=
    funext fun a => Fin.ext (by match a with | ⟨0, _⟩ => rfl | ⟨1, _⟩ => rfl)
  rw [e1, e2]
  rfl

/-- The same product for the service row. -/
private theorem v10_at (t : Fin 256) (e : Fin 300) :
    val_main_v10 (F := Ideal) x1 x2 (ix3 B t e) = x1 (ix2 B t) * x2 (ix2 e t) := by
  rw [val_main_v10_apply, val_main_v8_apply, val_main_v6_apply, val_main_v9_apply, val_main_v7_apply, val_main_v0_apply]
  have e1 : idx_main_v6 (idx_main_v8 (ix3 B t e)) = ix2 B t :=
    funext fun a => Fin.ext (by match a with | ⟨0, _⟩ => rfl | ⟨1, _⟩ => rfl)
  have e2 : idx_main_v0 (idx_main_v7 (idx_main_v9 (ix3 B t e))) = ix2 e t :=
    funext fun a => Fin.ext (by match a with | ⟨0, _⟩ => rfl | ⟨1, _⟩ => rfl)
  rw [e1, e2]
  rfl

/-- The bias broadcast over batch rows and topics reads the bias at the feature. -/
private theorem v13_at (t f : Fin 256) : val_main_v13 (F := Ideal) x4 (ix3 B t f) = x4 (ix1 f) := by
  rw [val_main_v13_apply, val_main_v12_apply]
  exact congrArg x4 (funext fun a => Fin.ext (by match a with | ⟨0, _⟩ => rfl))

private theorem v17_at (t f : Fin 256) : val_main_v17 (F := Ideal) x4 (ix3 B t f) = x4 (ix1 f) := by
  rw [val_main_v17_apply, val_main_v16_apply]
  exact congrArg x4 (funext fun a => Fin.ext (by match a with | ⟨0, _⟩ => rfl))

theorem ref_proj (t f : Fin 256) :
    val_main_v14 (F := Ideal) x0 x2 x3 x4 (ix3 B t f)
      = Cert.Row.proj (fun e t => x2 (ix2 e t)) (fun f e => x3 (ix2 f e)) (fun f => x4 (ix1 f)) (fun t => x0 (ix2 B t)) t f := by
  rw [val_main_v14_apply, val_main_v11_apply, v13_at]
  unfold Cert.Row.proj
  refine congrArg (· + x4 (ix1 f)) (Finset.sum_congr rfl fun e _ => ?_)
  have el : lidx_main_v11 (ix3 B t f) e = ix3 B t e :=
    funext fun a => Fin.ext (by match a with | ⟨0, _⟩ => rfl | ⟨1, _⟩ => rfl | ⟨2, _⟩ => rfl)
  have er : ridx_main_v11 (ix3 B t f) e = ix2 f e :=
    funext fun a => Fin.ext (by match a with | ⟨0, _⟩ => rfl | ⟨1, _⟩ => rfl)
  rw [el, er, v5_at]

/-- The linear layer on the service row, as for the request row. -/
private theorem v18_at (t f : Fin 256) :
    val_main_v18 (F := Ideal) x1 x2 x3 x4 (ix3 B t f)
      = Cert.Row.proj (fun e t => x2 (ix2 e t)) (fun f e => x3 (ix2 f e)) (fun f => x4 (ix1 f)) (fun t => x1 (ix2 B t)) t f := by
  rw [val_main_v18_apply, val_main_v15_apply, v17_at]
  unfold Cert.Row.proj
  refine congrArg (· + x4 (ix1 f)) (Finset.sum_congr rfl fun e _ => ?_)
  have el : lidx_main_v15 (ix3 B t f) e = ix3 B t e :=
    funext fun a => Fin.ext (by match a with | ⟨0, _⟩ => rfl | ⟨1, _⟩ => rfl | ⟨2, _⟩ => rfl)
  have er : ridx_main_v15 (ix3 B t f) e = ix2 f e :=
    funext fun a => Fin.ext (by match a with | ⟨0, _⟩ => rfl | ⟨1, _⟩ => rfl)
  rw [el, er, v10_at]

/-- The reference's score tensor at (request topic `i`, service topic `j`) is the specification's score of service
    topic `j` against request topic `i`: the same sum over features with the two factors exchanged. -/
private theorem v19_at (i j : Fin 256) :
    val_main_v19 (F := Ideal) x0 x1 x2 x3 x4 (ix3 B i j)
      = Cert.Row.att (fun t => x0 (ix2 B t)) (fun t => x1 (ix2 B t)) (fun e t => x2 (ix2 e t)) (fun f e => x3 (ix2 f e))
          (fun f => x4 (ix1 f)) j i := by
  rw [val_main_v19_apply]
  unfold Cert.Row.att
  refine Finset.sum_congr rfl fun k _ => ?_
  have el : lidx_main_v19 (ix3 B i j) k = ix3 B i k := funext fun a => Fin.ext (by match a with | ⟨0, _⟩ => rfl | ⟨1, _⟩ => rfl | ⟨2, _⟩ => rfl)
  have er : ridx_main_v19 (ix3 B i j) k = ix3 B j k := funext fun a => Fin.ext (by match a with | ⟨0, _⟩ => rfl | ⟨1, _⟩ => rfl | ⟨2, _⟩ => rfl)
  rw [el, er, ref_proj, v18_at]
  exact mul_comm _ _

/-- The maximum over the request topics (the tensor's middle axis), from minus infinity. -/
private theorem v20_at (j : Fin 256) :
    val_main_v20 (F := Ideal) x0 x1 x2 x3 x4 (ix2 B j)
      = (Finset.univ : Finset (Fin 256)).fold max Cert.Row.negInf (fun i => Cert.Row.att (fun t => x0 (ix2 B t)) (fun t => x1 (ix2 B t)) (fun e t => x2 (ix2 e t)) (fun f e => x3 (ix2 f e))
          (fun f => x4 (ix1 f)) j i) := by
  unfold val_main_v20
  refine (Host.reduce_eq_fold_single FloatOps.maximumf _ _ reducesTo_S1024x256x256_S1024x256_d1 (by decide) h_S_ (ix2 B j)).trans ?_
  refine Finset.fold_congr fun i _ => ?_
  show val_main_v19 (F := Ideal) x0 x1 x2 x3 x4 _ = _
  refine Eq.trans (congrArg (val_main_v19 (F := Ideal) x0 x1 x2 x3 x4) ?_) (v19_at x0 x1 x2 x3 x4 B i j)
  exact funext fun a => Fin.ext (by match a with | ⟨0, _⟩ => rfl | ⟨1, _⟩ => rfl | ⟨2, _⟩ => rfl)

/-- The row maximum, taken once more against minus infinity as the program does. -/
private theorem v22_at (i : Fin 256) :
    val_main_v22 (F := Ideal) x0 x1 x2 x3 x4 (ix2 B i)
      = Cert.Row.rowMax (fun t => x0 (ix2 B t)) (fun t => x1 (ix2 B t)) (fun e t => x2 (ix2 e t)) (fun f e => x3 (ix2 f e))
          (fun f => x4 (ix1 f)) i := by
  rw [val_main_v22_apply, v20_at]
  rfl

/-- The shifted exponential; the reference holds it transposed, (request topic, service topic). -/
private theorem v26_at (j i : Fin 256) :
    val_main_v26 (F := Ideal) x0 x1 x2 x3 x4 (ix3 B j i)
      = Cert.Row.ex (fun t => x0 (ix2 B t)) (fun t => x1 (ix2 B t)) (fun e t => x2 (ix2 e t)) (fun f e => x3 (ix2 f e))
          (fun f => x4 (ix1 f)) i j := by
  rw [val_main_v26_apply, val_main_v25_apply, val_main_v24_apply, val_main_v23_apply, v19_at]
  have e1 : idx_main_v23 (idx_main_v24 (ix3 B j i)) = ix2 B i := funext fun a => Fin.ext (by match a with | ⟨0, _⟩ => rfl | ⟨1, _⟩ => rfl)
  rw [e1, v22_at]
  rfl

/-- The normaliser: zero plus the sum over the request topics. -/
private theorem v27_at (i : Fin 256) :
    val_main_v27 (F := Ideal) x0 x1 x2 x3 x4 (ix2 B i)
      = Cert.Row.den (fun t => x0 (ix2 B t)) (fun t => x1 (ix2 B t)) (fun e t => x2 (ix2 e t)) (fun f e => x3 (ix2 f e))
          (fun f => x4 (ix1 f)) i := by
  rw [val_main_v27_apply]
  unfold Cert.Row.den
  rw [show val_main_cst_1 (F := Ideal) (Shape.Idx.first h_S_) = 0 from Ideal.ofBits_zero_f32, zero_add]
  refine Finset.sum_congr rfl fun k _ => ?_
  have e1 : idx_main_v27 (ix2 B i) k = ix3 B k i := funext fun a => Fin.ext (by match a with | ⟨0, _⟩ => rfl | ⟨1, _⟩ => rfl | ⟨2, _⟩ => rfl)
  rw [e1, v26_at]

/-- The softmax weight, again held transposed. -/
private theorem v30_at (j i : Fin 256) :
    val_main_v30 (F := Ideal) x0 x1 x2 x3 x4 (ix3 B j i)
      = Cert.Row.prob (fun t => x0 (ix2 B t)) (fun t => x1 (ix2 B t)) (fun e t => x2 (ix2 e t)) (fun f e => x3 (ix2 f e))
          (fun f => x4 (ix1 f)) i j := by
  rw [val_main_v30_apply, val_main_v29_apply, val_main_v28_apply, v26_at]
  have e1 : idx_main_v28 (idx_main_v29 (ix3 B j i)) = ix2 B i := funext fun a => Fin.ext (by match a with | ⟨0, _⟩ => rfl | ⟨1, _⟩ => rfl)
  rw [e1, v27_at]
  rfl

theorem ref_mix (i k : Fin 256) :
    val_main_v31 (F := Ideal) x0 x1 x2 x3 x4 (ix3 B i k)
      = Cert.Row.mix (fun t => x0 (ix2 B t)) (fun t => x1 (ix2 B t)) (fun e t => x2 (ix2 e t)) (fun f e => x3 (ix2 f e))
          (fun f => x4 (ix1 f)) i k := by
  rw [val_main_v31_apply]
  unfold Cert.Row.mix
  refine Finset.sum_congr rfl fun j _ => ?_
  have el : lidx_main_v31 (ix3 B i k) j = ix3 B j i := funext fun a => Fin.ext (by match a with | ⟨0, _⟩ => rfl | ⟨1, _⟩ => rfl | ⟨2, _⟩ => rfl)
  have er : ridx_main_v31 (ix3 B i k) j = ix3 B j k := funext fun a => Fin.ext (by match a with | ⟨0, _⟩ => rfl | ⟨1, _⟩ => rfl | ⟨2, _⟩ => rfl)
  rw [el, er, v30_at, ref_proj]

end Cert.ReferenceIdeal.RefRow
end
-- ==== Proof.RefTail.lean ====
/-
  The end of the reference program at one batch row.

  Given that the projected request features of row B are `proj` and the attended features are `mix`,
  the remaining stages are: the two means over the 256 topics (a sum from zero, divided by 256), their
  inner product, the two Euclidean norms (a sum of squares from zero, then a square root), the floor of
  the product of the norms at eps, the quotient, and the final scale by three. Each stage is read at the
  coordinates of row B; a sum's zero initial value is removed by 0 + x = x, and the shared literals are
  the same words on both sides.
-/
import proofs.«117190_j58067957842619_1_alg».proof.Proof.Spec
import proofs.«117190_j58067957842619_1_alg».proof.Proof.Gen.ReferenceIdeal.Read
import Idealize.ShloMosaic.Lib.ValueIdx
import Idealize.ShloMosaic.PureOps.Ideal.Laws
noncomputable section

namespace Cert.ReferenceIdeal.RefRow
open Idealize.ShloMosaic Idealize.SL.Sem Cert.ReferenceIdeal Cert.ReferenceIdeal.Gen Cert.ReferenceIdeal.Read Idealize.ShloMosaic.ValueIdx

variable (x0 x1 : (⟨S1024x256, .f32⟩ : BufTy).Contents (Elt Ideal)) (x2 : (⟨S300x256, .f32⟩ : BufTy).Contents (Elt Ideal))
  (x3 : (⟨S256x300, .f32⟩ : BufTy).Contents (Elt Ideal)) (x4 : (⟨S256, .f32⟩ : BufTy).Contents (Elt Ideal)) (B : Fin 1024)

namespace Tail

/-- Summing a rank-3 stage over its middle axis at (B, f) visits the indices (B, k, f). -/
theorem idx_mid (f k : Fin 256) : idx_main_v32 (ix2 B f) k = ix3 B k f :=
  funext fun a => Fin.ext (by match a with | ⟨0, _⟩ => rfl | ⟨1, _⟩ => rfl | ⟨2, _⟩ => rfl)

/-- The same for the attended features. -/
theorem idx_mid' (f k : Fin 256) : idx_main_v35 (ix2 B f) k = ix3 B k f :=
  funext fun a => Fin.ext (by match a with | ⟨0, _⟩ => rfl | ⟨1, _⟩ => rfl | ⟨2, _⟩ => rfl)

/-- Summing a rank-2 stage over its last axis at B visits the indices (B, k). -/
theorem idx_last (k : Fin 256) : idx_main_v39 (ix1 B) k = ix2 B k :=
  funext fun a => Fin.ext (by match a with | ⟨0, _⟩ => rfl | ⟨1, _⟩ => rfl)

theorem idx_last0 (k : Fin 256) : idx_main_call0_v1 (ix1 B) k = ix2 B k :=
  funext fun a => Fin.ext (by match a with | ⟨0, _⟩ => rfl | ⟨1, _⟩ => rfl)

theorem idx_last1 (k : Fin 256) : idx_main_call1_v1 (ix1 B) k = ix2 B k :=
  funext fun a => Fin.ext (by match a with | ⟨0, _⟩ => rfl | ⟨1, _⟩ => rfl)

variable (r s : Fin 256 → EReal) (te : Fin 300 → Fin 256 → EReal) (w : Fin 256 → Fin 300 → EReal) (bv : Fin 256 → EReal)

/-- The sum over the topics of the projected request features. -/
theorem v32
    (hproj : ∀ t f : Fin 256, val_main_v14 (F := Ideal) x0 x2 x3 x4 (ix3 B t f) = Cert.Row.proj te w bv r t f)
    (f : Fin 256) :
    val_main_v32 (F := Ideal) x0 x2 x3 x4 (ix2 B f) = ∑ t : Fin 256, Cert.Row.proj te w bv r t f := by
  refine (val_main_v32_apply x0 x2 x3 x4 (ix2 B f)).trans ?_
  refine (congrArg (· + _) (show val_main_cst_2 (F := Ideal) (Shape.Idx.first h_S_) = (0 : EReal) from
    Ideal.ofBits_zero_f32)).trans ?_
  refine (zero_add _).trans ?_
  refine Finset.sum_congr rfl fun k _ => ?_
  exact (congrArg (val_main_v14 (F := Ideal) x0 x2 x3 x4) (idx_mid B f k)).trans (hproj k f)

/-- The divisor of the first mean is the number of topics. -/
theorem v33 (f : Fin 256) : val_main_v33 (F := Ideal) (ix2 B f) = Cert.Row.nTopics :=
  (val_main_v33_apply (F := Ideal) (ix2 B f)).trans rfl

/-- The mean request feature. -/
theorem v34
    (hproj : ∀ t f : Fin 256, val_main_v14 (F := Ideal) x0 x2 x3 x4 (ix3 B t f) = Cert.Row.proj te w bv r t f)
    (f : Fin 256) :
    val_main_v34 (F := Ideal) x0 x2 x3 x4 (ix2 B f) = Cert.Row.aveReq r te w bv f := by
  show Ideal.div (val_main_v32 (F := Ideal) x0 x2 x3 x4 (ix2 B f)) (val_main_v33 (F := Ideal) (ix2 B f)) = _
  rw [v32 x0 x2 x3 x4 B r te w bv hproj f, v33 B f]
  rfl

/-- The sum over the service topics of the attended features. -/
theorem v35
    (hmix : ∀ i k : Fin 256, val_main_v31 (F := Ideal) x0 x1 x2 x3 x4 (ix3 B i k) = Cert.Row.mix r s te w bv i k)
    (k : Fin 256) :
    val_main_v35 (F := Ideal) x0 x1 x2 x3 x4 (ix2 B k) = ∑ i : Fin 256, Cert.Row.mix r s te w bv i k := by
  refine (val_main_v35_apply x0 x1 x2 x3 x4 (ix2 B k)).trans ?_
  refine (congrArg (· + _) (show val_main_cst_4 (F := Ideal) (Shape.Idx.first h_S_) = (0 : EReal) from
    Ideal.ofBits_zero_f32)).trans ?_
  refine (zero_add _).trans ?_
  refine Finset.sum_congr rfl fun i _ => ?_
  exact (congrArg (val_main_v31 (F := Ideal) x0 x1 x2 x3 x4) (idx_mid' B k i)).trans (hmix i k)

/-- The divisor of the second mean is the number of topics. -/
theorem v36 (k : Fin 256) : val_main_v36 (F := Ideal) (ix2 B k) = Cert.Row.nTopics :=
  (val_main_v36_apply (F := Ideal) (ix2 B k)).trans rfl

/-- The mean attended feature. -/
theorem v37
    (hmix : ∀ i k : Fin 256, val_main_v31 (F := Ideal) x0 x1 x2 x3 x4 (ix3 B i k) = Cert.Row.mix r s te w bv i k)
    (k : Fin 256) :
    val_main_v37 (F := Ideal) x0 x1 x2 x3 x4 (ix2 B k) = Cert.Row.aveMix r s te w bv k := by
  show Ideal.div (val_main_v35 (F := Ideal) x0 x1 x2 x3 x4 (ix2 B k)) (val_main_v36 (F := Ideal) (ix2 B k)) = _
  rw [v35 x0 x1 x2 x3 x4 B r s te w bv hmix k, v36 B k]
  rfl

/-- The inner product of the two mean vectors. -/
theorem v39
    (hproj : ∀ t f : Fin 256, val_main_v14 (F := Ideal) x0 x2 x3 x4 (ix3 B t f) = Cert.Row.proj te w bv r t f)
    (hmix : ∀ i k : Fin 256, val_main_v31 (F := Ideal) x0 x1 x2 x3 x4 (ix3 B i k) = Cert.Row.mix r s te w bv i k) :
    val_main_v39 (F := Ideal) x0 x1 x2 x3 x4 (ix1 B)
      = ∑ k : Fin 256, Cert.Row.aveReq r te w bv k * Cert.Row.aveMix r s te w bv k := by
  refine (val_main_v39_apply x0 x1 x2 x3 x4 (ix1 B)).trans ?_
  refine (congrArg (· + _) (show val_main_cst_6 (F := Ideal) (Shape.Idx.first h_S_) = (0 : EReal) from
    Ideal.ofBits_zero_f32)).trans ?_
  refine (zero_add _).trans ?_
  refine Finset.sum_congr rfl fun k _ => ?_
  refine (congrArg (val_main_v38 (F := Ideal) x0 x1 x2 x3 x4) (idx_last B k)).trans ?_
  show val_main_v34 (F := Ideal) x0 x2 x3 x4 (ix2 B k) * val_main_v37 (F := Ideal) x0 x1 x2 x3 x4 (ix2 B k) = _
  rw [v34 x0 x2 x3 x4 B r te w bv hproj k, v37 x0 x1 x2 x3 x4 B r s te w bv hmix k]

/-- The Euclidean norm of the mean request vector. -/
theorem v40
    (hproj : ∀ t f : Fin 256, val_main_v14 (F := Ideal) x0 x2 x3 x4 (ix3 B t f) = Cert.Row.proj te w bv r t f) :
    val_main_v40 (F := Ideal) x0 x2 x3 x4 (ix1 B)
      = Ideal.sqrt (∑ k : Fin 256, Cert.Row.aveReq r te w bv k * Cert.Row.aveReq r te w bv k) := by
  show Ideal.sqrt (val_main_call0_v1 (F := Ideal) x0 x2 x3 x4 (ix1 B)) = _
  refine congrArg Ideal.sqrt ?_
  refine (val_main_call0_v1_apply x0 x2 x3 x4 (ix1 B)).trans ?_
  refine (congrArg (· + _) (show val_main_call0_cst (F := Ideal) (Shape.Idx.first h_S_) = (0 : EReal) from
    Ideal.ofBits_zero_f32)).trans ?_
  refine (zero_add _).trans ?_
  refine Finset.sum_congr rfl fun k _ => ?_
  refine (congrArg (val_main_call0_v0 (F := Ideal) x0 x2 x3 x4) (idx_last0 B k)).trans ?_
  show val_main_v34 (F := Ideal) x0 x2 x3 x4 (ix2 B k) * val_main_v34 (F := Ideal) x0 x2 x3 x4 (ix2 B k) = _
  rw [v34 x0 x2 x3 x4 B r te w bv hproj k]

/-- The Euclidean norm of the mean attended vector. -/
theorem v41
    (hmix : ∀ i k : Fin 256, val_main_v31 (F := Ideal) x0 x1 x2 x3 x4 (ix3 B i k) = Cert.Row.mix r s te w bv i k) :
    val_main_v41 (F := Ideal) x0 x1 x2 x3 x4 (ix1 B)
      = Ideal.sqrt (∑ k : Fin 256, Cert.Row.aveMix r s te w bv k * Cert.Row.aveMix r s te w bv k) := by
  show Ideal.sqrt (val_main_call1_v1 (F := Ideal) x0 x1 x2 x3 x4 (ix1 B)) = _
  refine congrArg Ideal.sqrt ?_
  refine (val_main_call1_v1_apply x0 x1 x2 x3 x4 (ix1 B)).trans ?_
  refine (congrArg (· + _) (show val_main_call1_cst (F := Ideal) (Shape.Idx.first h_S_) = (0 : EReal) from
    Ideal.ofBits_zero_f32)).trans ?_
  refine (zero_add _).trans ?_
  refine Finset.sum_congr rfl fun k _ => ?_
  refine (congrArg (val_main_call1_v0 (F := Ideal) x0 x1 x2 x3 x4) (idx_last1 B k)).trans ?_
  show val_main_v37 (F := Ideal) x0 x1 x2 x3 x4 (ix2 B k) * val_main_v37 (F := Ideal) x0 x1 x2 x3 x4 (ix2 B k) = _
  rw [v37 x0 x1 x2 x3 x4 B r s te w bv hmix k]

/-- The floor of the denominator. -/
theorem v43 : val_main_v43 (F := Ideal) (ix1 B) = Cert.Row.eps :=
  (val_main_v43_apply (F := Ideal) (ix1 B)).trans rfl

/-- The final scale. -/
theorem v46 : val_main_v46 (F := Ideal) (ix1 B) = Cert.Row.three :=
  (val_main_v46_apply (F := Ideal) (ix1 B)).trans rfl

end Tail

theorem ref_tail (r s : Fin 256 → EReal) (te : Fin 300 → Fin 256 → EReal) (w : Fin 256 → Fin 300 → EReal) (bv : Fin 256 → EReal)
    (hproj : ∀ t f : Fin 256, val_main_v14 (F := Ideal) x0 x2 x3 x4 (ix3 B t f) = Cert.Row.proj te w bv r t f)
    (hmix : ∀ i k : Fin 256, val_main_v31 (F := Ideal) x0 x1 x2 x3 x4 (ix3 B i k) = Cert.Row.mix r s te w bv i k) :
    val_main_v47 (F := Ideal) x0 x1 x2 x3 x4 (ix1 B) = Cert.Row.out r s te w bv := by
  show Ideal.div (val_main_v39 (F := Ideal) x0 x1 x2 x3 x4 (ix1 B))
        (max (val_main_v40 (F := Ideal) x0 x2 x3 x4 (ix1 B) * val_main_v41 (F := Ideal) x0 x1 x2 x3 x4 (ix1 B))
          (val_main_v43 (F := Ideal) (ix1 B)))
      * val_main_v46 (F := Ideal) (ix1 B) = _
  rw [Tail.v39 x0 x1 x2 x3 x4 B r s te w bv hproj hmix, Tail.v40 x0 x2 x3 x4 B r te w bv hproj,
    Tail.v41 x0 x1 x2 x3 x4 B r s te w bv hmix, Tail.v43 B, Tail.v46 B]
  rfl

end Cert.ReferenceIdeal.RefRow
end
-- ==== Proof.RefRow.lean ====
/-
  The reference program's result at batch row `B` is the row mathematics of row `B` of the arguments.

  Its stages up to the attended features are the specification's `proj` and `mix` of row `B`; from those two facts the
  rest of the program — means, inner product, norms, floor, quotient, scale — is the specification's `out`.
-/
import proofs.«117190_j58067957842619_1_alg».proof.Proof.RefMix
import proofs.«117190_j58067957842619_1_alg».proof.Proof.RefTail

noncomputable section

namespace Cert.ReferenceIdeal.RefRow

open Idealize.ShloMosaic Idealize.SL.Sem Cert.ReferenceIdeal Cert.ReferenceIdeal.Gen Cert.ReferenceIdeal.Read Idealize.ShloMosaic.ValueIdx

variable (x0 x1 : (⟨S1024x256, .f32⟩ : BufTy).Contents (Elt Ideal)) (x2 : (⟨S300x256, .f32⟩ : BufTy).Contents (Elt Ideal))
  (x3 : (⟨S256x300, .f32⟩ : BufTy).Contents (Elt Ideal)) (x4 : (⟨S256, .f32⟩ : BufTy).Contents (Elt Ideal)) (B : Fin 1024)

/-- Entry `B` of the reference's result is the score of request row `B` against service row `B`. -/
theorem ref_row :
    val_main_v47 (F := Ideal) x0 x1 x2 x3 x4 (ix1 B)
      = Cert.Row.out (fun t => x0 (ix2 B t)) (fun t => x1 (ix2 B t)) (fun e t => x2 (ix2 e t)) (fun f e => x3 (ix2 f e))
          (fun f => x4 (ix1 f)) :=
  ref_tail x0 x1 x2 x3 x4 B _ _ _ _ _ (ref_proj x0 x2 x3 x4 B) (ref_mix x0 x1 x2 x3 x4 B)

end Cert.ReferenceIdeal.RefRow

end
-- ==== Proof.lean ====
/-
  The certificate: a fused topic cross-attention score kernel against its jnp reference.

  For each of 1024 batch rows both programs compute one number: the row's request weights and service weights scale the
  256 topic embeddings, a linear layer maps each scaled embedding to 256 features, the service features attend over the
  request features through a softmax of their scores, and the result is three times the cosine similarity (floored
  denominator) of the mean request feature and the mean attended feature. The kernel does this 16 rows at a time inside
  grid blocks of 128 rows, with the score matrix held transposed and the softmax along its last axis; the reference does
  it for all rows at once with the softmax along the middle axis. At the ideal values a change of float format is the
  identity and a matrix product is its sum, so both results are, entry by entry, the same term `Cert.Row.out` of the
  row's data (Proof/Spec.lean): the kernel's by Proof/Blocks.lean over Proof/ChunkRow.lean, the reference's by
  Proof/RefRow.lean. The only law between the two sides is that a product of two extended reals commutes; no finiteness
  is used. The three frames are the generated frame runs (the reference's is its generated run with the result
  dropped), and the idealization rewrote nothing, so its conjunct is `True`.
-/
import proofs.«117190_j58067957842619_1_alg».proof.Defs
import proofs.«117190_j58067957842619_1_alg».proof.Proof.Gen.Kernel
import proofs.«117190_j58067957842619_1_alg».proof.Proof.Gen.Kernel.Skeleton
import proofs.«117190_j58067957842619_1_alg».proof.Proof.Gen.Kernel.Launch
import proofs.«117190_j58067957842619_1_alg».proof.Proof.Gen.Kernel.Points
import proofs.«117190_j58067957842619_1_alg».proof.Proof.Gen.Kernel.Frame
import proofs.«117190_j58067957842619_1_alg».proof.Proof.Gen.KernelIdeal
import proofs.«117190_j58067957842619_1_alg».proof.Proof.Gen.KernelIdeal.Skeleton
import proofs.«117190_j58067957842619_1_alg».proof.Proof.Gen.KernelIdeal.Launch
import proofs.«117190_j58067957842619_1_alg».proof.Proof.Gen.KernelIdeal.Points
import proofs.«117190_j58067957842619_1_alg».proof.Proof.Gen.KernelIdeal.Frame
import proofs.«117190_j58067957842619_1_alg».proof.Proof.Gen.ReferenceIdeal
import proofs.«117190_j58067957842619_1_alg».proof.Proof.Gen.Pre_finite_inputs
import proofs.«117190_j58067957842619_1_alg».proof.Proof.Gen.ReferenceIdeal.Run
import proofs.«117190_j58067957842619_1_alg».proof.Proof.Gen.ReferenceIdeal.Read
import proofs.«117190_j58067957842619_1_alg».proof.Proof.Blocks
import proofs.«117190_j58067957842619_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both idealized programs end with entry `B` of the result at the
    score of batch row `B`: the kernel by its run read block by block, the reference by its run read stage by stage. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1,
    (hagree c).2.2.2.2]
  funext i
  obtain ⟨B, rfl⟩ : ∃ B : Fin 1024, i = ix1 B := ⟨i 0, eq_ix1 i⟩
  exact Cert.ReferenceIdeal.RefRow.ref_row _ _ _ _ _ B

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
